-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S4096x64 : Shape := ⟨2, ![4096, 64]⟩
abbrev S4096 : Shape := ⟨1, ![4096]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x64 .f32) (main_arg1 : FVec F S4096x64 .f32) (main_arg2 : FVec F S4096 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x64 : Shape := ⟨2, ![16384, 64]⟩
abbrev S4096x64 : Shape := ⟨2, ![4096, 64]⟩
abbrev S4096 : Shape := ⟨1, ![4096]⟩
abbrev S1x4096 : Shape := ⟨2, ![1, 4096]⟩
abbrev S4096x1 : Shape := ⟨2, ![4096, 1]⟩
abbrev S16384 : Shape := ⟨1, ![16384]⟩
abbrev S256x64 : Shape := ⟨2, ![256, 64]⟩
abbrev S256 : Shape := ⟨1, ![256]⟩
abbrev S256x4096 : Shape := ⟨2, ![256, 4096]⟩
abbrev S256x1 : Shape := ⟨2, ![256, 1]⟩

abbrev nBuf : Space → Nat
  | .hbm => 9
  | .vmem => 9
  | .smem => 0
  | _ => 0

abbrev bufTy : (tb : Table) → Fin (tcTables nBuf tb) → BufTy
  | .hbm, ⟨0, _⟩ => ⟨S16384x64, .f32⟩
  | .hbm, ⟨1, _⟩ => ⟨S4096x64, .f32⟩
  | .hbm, ⟨2, _⟩ => ⟨S4096, .f32⟩
  | .hbm, ⟨3, _⟩ => ⟨S4096x64, .bf16⟩
  | .hbm, ⟨4, _⟩ => ⟨S1x4096, .f32⟩
  | .hbm, ⟨5, _⟩ => ⟨S4096x1, .f32⟩
  | .hbm, ⟨6, _⟩ => ⟨S4096x1, .bf16⟩
  | .hbm, ⟨7, _⟩ => ⟨S16384x64, .f32⟩
  | .hbm, ⟨8, _⟩ => ⟨S16384, .f32⟩
  | .local _ .vmem, ⟨0, _⟩ => ⟨S256x64, .f32⟩
  | .local _ .vmem, ⟨1, _⟩ => ⟨S256x64, .f32⟩
  | .local _ .vmem, ⟨2, _⟩ => ⟨S4096x64, .bf16⟩
  | .local _ .vmem, ⟨3, _⟩ => ⟨S1x4096, .f32⟩
  | .local _ .vmem, ⟨4, _⟩ => ⟨S4096x1, .bf16⟩
  | .local _ .vmem, ⟨5, _⟩ => ⟨S256x64, .f32⟩
  | .local _ .vmem, ⟨6, _⟩ => ⟨S256x64, .f32⟩
  | .local _ .vmem, ⟨7, _⟩ => ⟨S256, .f32⟩
  | .local _ .vmem, ⟨8, _⟩ => ⟨S256, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S4096_S1x4096 : S4096.ShapeCasts S1x4096
  shapeCasts_S4096_S4096x1 : S4096.ShapeCasts S4096x1
  inb_S256x64_S256x64_0_0 : ∀ a, (![0, 0] : Fin 2 → Nat) a + S256x64.size a ≤ S256x64.size a
  h_S256x64 : 0 < S256x64.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  reduces_S256x4096_S256 : S256x4096.Reduces [1] S256
  shapeCasts_S256_S256x1 : S256.ShapeCasts S256x1
  broadcasts_S256x1_S256x4096 : S256x1.Broadcasts S256x4096
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S256x1_S256x64 : S256x1.Broadcasts S256x64
  reduces_S256x64_S256 : S256x64.Reduces [1] S256
  shapeCasts_S256x1_S256 : S256x1.ShapeCasts S256
  inb_S256_S256_0 : ∀ a, (![0] : Fin 1 → Nat) a + S256.size a ≤ S256.size a
  h_S256 : 0 < S256.numel
  dot_S256x64_S4096x64_S256x4096_1_1_0_0_n_n_wf : DotDims.WF S256x64 S4096x64 S256x4096 [1] [1] [0] [0] [] []
  dot_S256x4096_S4096x64_S256x64_1_0_0_1_n_n_wf : DotDims.WF S256x4096 S4096x64 S256x64 [1] [0] [0] [1] [] []
  dot_S256x4096_S4096x1_S256x1_1_0_0_1_n_n_wf : DotDims.WF S256x4096 S4096x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S16384x64.size a
  hwx0_0 : ∀ i : grid0.Coords, EltTy.bits .f32 = 32 ∨ (Rect.block (s := S16384x64) S256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S4096x64.size a
  hwx0_1 : ∀ i : grid0.Coords, EltTy.bits .bf16 = 32 ∨ (Rect.block (s := S4096x64) S4096x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S4096x1.size a
  hwx0_3 : ∀ i : grid0.Coords, EltTy.bits .bf16 = 32 ∨ (Rect.block (s := S4096x1) S4096x1.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S16384x64.size a
  hwx0_4 : ∀ i : grid0.Coords, EltTy.bits .f32 = 32 ∨ (Rect.block (s := S16384x64) S256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S16384.size a
  hwx0_5 : ∀ i : grid0.Coords, EltTy.bits .f32 = 32 ∨ (Rect.block (s := S16384) S256.size (cc0_transform_5 i) (hinb0_5 i)).WholeWords (EltTy.packing .f32)

variable [Facts₀]

def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S256x4096_S4096x1_S256x1_1_0_0_1_n_n : DotDims S256x4096 S4096x1 S256x1 where
  lhsContracting := [1]
  rhsContracting := [0]
  lhsNonContracting := [0]
  rhsNonContracting := [1]
  lhsBatch := []
  rhsBatch := []
  wf := dot_S256x4096_S4096x1_S256x1_1_0_0_1_n_n_wf

abbrev win0_0 : Pipeline.Window sig grid0 :=
  Pipeline.Window.ofSpec (Memref.whole main_arg0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x64 : Shape := ⟨2, ![16384, 64]⟩
abbrev S4096x64 : Shape := ⟨2, ![4096, 64]⟩
abbrev S4096 : Shape := ⟨1, ![4096]⟩
abbrev S16384x4096 : Shape := ⟨2, ![16384, 4096]⟩
abbrev S1x4096 : Shape := ⟨2, ![1, 4096]⟩
abbrev S_ : Shape := ⟨0, ![]⟩
abbrev S16384 : Shape := ⟨1, ![16384]⟩
abbrev S16384x1 : Shape := ⟨2, ![16384, 1]⟩

abbrev nBuf : Space → Nat
  | .hbm => 48
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S4096x64, .f32⟩
  | .hbm, ⟨2, _⟩ => ⟨S4096, .f32⟩
  | .hbm, ⟨3, _⟩ => ⟨S16384x4096, .f32⟩
  | .hbm, ⟨4, _⟩ => ⟨S1x4096, .f32⟩
  | .hbm, ⟨5, _⟩ => ⟨S16384x4096, .f32⟩
  | .hbm, ⟨6, _⟩ => ⟨S16384x4096, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x4096, .f32⟩
  | .hbm, ⟨29, _⟩ => ⟨S16384x4096, .f32⟩
  | .hbm, ⟨30, _⟩ => ⟨S_, .f32⟩
  | .hbm, ⟨31, _⟩ => ⟨S16384, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S16384x1, .f32⟩
  | .hbm, ⟨36, _⟩ => ⟨S16384x4096, .f32⟩
  | .hbm, ⟨37, _⟩ => ⟨S16384x4096, .f32⟩
  | .hbm, ⟨38, _⟩ => ⟨S16384x4096, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S16384x4096, .f32⟩
  | .hbm, ⟨43, _⟩ => ⟨S16384x4096, .f32⟩
  | .hbm, ⟨44, _⟩ => ⟨S16384x4096, .f32⟩
  | .hbm, ⟨45, _⟩ => ⟨S_, .f32⟩
  | .hbm, ⟨46, _⟩ => ⟨S16384, .f32⟩
  | .hbm, ⟨47, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  reducesTo_S16384x4096_S16384_d1 : S16384x4096.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x4096_0_1 : S16384x1.BroadcastsInDim S16384x4096 (![0, 1] : Fin 2 → Fin S16384x4096.rank)
  bcast_S_S16384 : S_.BroadcastsInDim S16384 (![] : Fin 0 → Fin S16384.rank)
  dot_S16384x64_S4096x64_S16384x4096_1_1_0_0_n_n_wf : DotDims.WF S16384x64 S4096x64 S16384x4096 [1] [1] [0] [0] [] []
  dot_S16384x4096_S4096x64_S16384x64_1_0_0_1_n_n_wf : DotDims.WF S16384x4096 S4096x64 S16384x64 [1] [0] [0] [1] [] []

variable [Facts₀]

def dot_S16384x64_S4096x64_S16384x4096_1_1_0_0_n_n : DotDims S16384x64 S4096x64 S16384x4096 where
  lhsContracting := [1]
  rhsContracting := [1]
  lhsNonContracting := [0]
  rhsNonContracting := [0]
  lhsBatch := []
  rhsBatch := []
  wf := dot_S16384x64_S4096x64_S16384x4096_1_1_0_0_n_n_wf
def dot_S16384x4096_S4096x64_S16384x64_1_0_0_1_n_n : DotDims S16384x4096 S4096x64 S16384x64 where
  lhsContracting := [1]
  rhsContracting := [0]
  lhsNonContracting := [0]
  rhsNonContracting := [1]
  lhsBatch := []
  rhsBatch := []
  wf := dot_S16384x4096_S4096x64_S16384x64_1_0_0_1_n_n_wf

class Facts : Prop extends Facts₀ where

variable [Facts]
-- ==== Proof.Spec.lean ====
/-
  The mathematics of the two programs, one ROW of the score matrix at a time, over arbitrary finite
  index sets: `κ` indexes the code vectors (the rows of `Y`), `δ` the features.

  For a query row `x`, the scores are `a k = ⟨x, Y k⟩ - b k`.  Both programs form the adaptive
  temperature `T = clip (50 / max (max a - min a) 1e-3) 50 5000` and the softmax weights of `T • a`,
  and return `choice = ∑ k, w k • Y k` and `v = ∑ k, w k * a k`.  They arrange the arithmetic
  differently:

  * the kernel shifts before scaling, `e k = exp (T * (a k - max a))`, keeps the weights
    unnormalised, and scales once at the end: `choice = (∑ k, e k • Y k) * (1 / ∑ e)`,
    `v = ⟨x, choice⟩ - (1 / ∑ e) * ∑ k, e k * b k`;
  * the reference scales before shifting, `e' k = exp (a k * T - max (a * T))`, normalises each
    weight, `w k = e' k / ∑ e'`, and sums `w k • Y k` and `w k * a k`.

  The definitions below are the two arrangements on the extended reals, literal for literal.
-/
import Idealize.ShloMosaic.PureOps.Ideal
import Idealize.ShloMosaic.Lib.ValueIdx

noncomputable section

namespace Cert.SoftAssign

open Idealize.ShloMosaic

variable {κ δ : Type} [Fintype κ] [Fintype δ]

/-- The float literals of the two programs, as the extended reals their patterns denote. -/
abbrev negInf : EReal := Ideal.ofBits .f32 0xFF800000#32
abbrev posInf : EReal := Ideal.ofBits .f32 0x7F800000#32
abbrev fZero : EReal := Ideal.ofBits .f32 0x00000000#32
abbrev fOne : EReal := Ideal.ofBits .f32 0x3F800000#32
abbrev spanFloor : EReal := Ideal.ofBits .f32 0x3A83126F#32
abbrev tempLo : EReal := Ideal.ofBits .f32 0x42480000#32
abbrev tempHi : EReal := Ideal.ofBits .f32 0x459C4000#32

/-- The score of code vector `k` for the query row `x`: the inner product minus the intercept. -/
def score (x : δ → EReal) (Y : κ → δ → EReal) (b : κ → EReal) (k : κ) : EReal :=
  (∑ d, x d * Y k d) - b k

/-- The largest and the smallest score of a row, as folds from `-∞` and `+∞`. -/
def rowMax (a : κ → EReal) : EReal := Finset.univ.fold max negInf a
def rowMin (a : κ → EReal) : EReal := Finset.univ.fold min posInf a

/-- The adaptive temperature: `50 / max (span) 1e-3` clipped to `[50, 5000]`. -/
def temp (a : κ → EReal) : EReal :=
  min tempHi (max tempLo (Ideal.div tempLo (max (rowMax a - rowMin a) spanFloor)))

/-! ### The kernel's arrangement -/

/-- Unnormalised weight: shift by the row maximum, then scale by the temperature. -/
def kWeight (a : κ → EReal) (k : κ) : EReal := Ideal.exp (temp a * (a k - rowMax a))

/-- The reciprocal of the weights' sum. -/
def kInv (a : κ → EReal) : EReal := Ideal.div fOne (∑ k, kWeight a k)

/-- The soft choice: the unnormalised combination of the code vectors, scaled once. -/
def kChoice (a : κ → EReal) (Y : κ → δ → EReal) (d : δ) : EReal :=
  (∑ k, kWeight a k * Y k d) * kInv a

/-- The soft value, from the identity `∑ w k * a k = ⟨x, choice⟩ - ∑ w k * b k`. -/
def kValue (x : δ → EReal) (a : κ → EReal) (Y : κ → δ → EReal) (b' : κ → EReal) : EReal :=
  (∑ d, x d * kChoice a Y d) - kInv a * (∑ k, kWeight a k * b' k)

/-! ### The reference's arrangement -/

/-- Unnormalised weight: scale by the temperature, then shift by the maximum of the scaled scores. -/
def rWeight (a : κ → EReal) (k : κ) : EReal :=
  Ideal.exp (a k * temp a - max negInf (Finset.univ.fold max negInf fun k' => a k' * temp a))

/-- The normalised weight. -/
def rProb (a : κ → EReal) (k : κ) : EReal := Ideal.div (rWeight a k) (fZero + ∑ k', rWeight a k')

def rChoice (a : κ → EReal) (Y : κ → δ → EReal) (d : δ) : EReal := ∑ k, rProb a k * Y k d

def rValue (a : κ → EReal) : EReal := fZero + ∑ k, rProb a k * a k

/-! ### The two result arrays as functions of the three argument arrays

`X : [16384, 64]` holds the query rows, `Y : [4096, 64]` the code vectors, `b : [4096]` the intercepts. -/

/-- Row `r` of the queries, the code vectors and the intercepts as plain functions of coordinates. -/
abbrev qRow (X : (⟨2, ![16384, 64]⟩ : Shape).Idx → EReal) (r : Fin 16384) : Fin 64 → EReal :=
  fun d => X (ValueIdx.ix2 r d)
abbrev codes (Y : (⟨2, ![4096, 64]⟩ : Shape).Idx → EReal) : Fin 4096 → Fin 64 → EReal :=
  fun k d => Y (ValueIdx.ix2 k d)
abbrev icpt (b : (⟨1, ![4096]⟩ : Shape).Idx → EReal) : Fin 4096 → EReal :=
  fun k => b (ValueIdx.ix1 k)

/-- The scores of query row `r`. -/
abbrev scores (X : (⟨2, ![16384, 64]⟩ : Shape).Idx → EReal) (Y : (⟨2, ![4096, 64]⟩ : Shape).Idx → EReal)
    (b : (⟨1, ![4096]⟩ : Shape).Idx → EReal) (r : Fin 16384) : Fin 4096 → EReal :=
  score (qRow X r) (codes Y) (icpt b)

/-- The soft choice array `[16384, 64]` and the soft value array `[16384]`, in the kernel's arrangement. -/
def choiceArr (X : (⟨2, ![16384, 64]⟩ : Shape).Idx → EReal) (Y : (⟨2, ![4096, 64]⟩ : Shape).Idx → EReal)
    (b : (⟨1, ![4096]⟩ : Shape).Idx → EReal) : (⟨2, ![16384, 64]⟩ : Shape).Idx → EReal :=
  fun i => kChoice (scores X Y b (i 0)) (codes Y) (i 1)
def valueArr (X : (⟨2, ![16384, 64]⟩ : Shape).Idx → EReal) (Y : (⟨2, ![4096, 64]⟩ : Shape).Idx → EReal)
    (b : (⟨1, ![4096]⟩ : Shape).Idx → EReal) : (⟨1, ![16384]⟩ : Shape).Idx → EReal :=
  fun i => kValue (qRow X (i 0)) (scores X Y b (i 0)) (codes Y) (icpt b)

end Cert.SoftAssign

end
-- ==== Proof.Algebra.lean ====
/-
  On finite inputs the two arrangements of `Spec.lean` agree.

  Every input is the coercion of a real, so every intermediate quantity is the coercion of a real:
  the scores `a k`, their maximum `M` and minimum `m`, the temperature `T > 0`, the weights
  `e k = exp (T * (a k - M)) > 0` and their sum `S > 0`.  The two arrangements then differ by the
  identity `a k * T - M * T = T * (a k - M)` inside the exponential (the maximum of `a · T` is
  `M * T` because `T > 0`) and by the place of the factor `1 / S`, which is distributivity.
-/
import proofs.«169335_j88089779241353_2_alg».proof.Proof.Spec
import Mathlib.Data.EReal.Basic
import Mathlib.Data.EReal.Operations
import Mathlib.Data.EReal.Inv
import Mathlib.Analysis.SpecialFunctions.Exp
import Mathlib.Data.Finset.Fold
import Mathlib.Data.Finset.Lattice.Fold
import Mathlib.Algebra.BigOperators.Group.Finset.Basic
import Mathlib.Algebra.Order.BigOperators.Group.Finset

noncomputable section

namespace Cert.SoftAssign

open Idealize.ShloMosaic

variable {κ δ : Type} [Fintype κ] [Fintype δ] [Nonempty κ]

/-! ### The literals -/

theorem negInf_eq : negInf = ⊥ := by
  simp [Ideal.ofBits, Ideal.ieee]

theorem posInf_eq : posInf = ⊤ := by
  simp [Ideal.ofBits, Ideal.ieee]

theorem fZero_eq : fZero = 0 := by
  simp [Ideal.ofBits, Ideal.ieee]

theorem fOne_eq : fOne = 1 := by
  simp [Ideal.ofBits, Ideal.ieee, -EReal.coe_mul]; norm_num

theorem tempLo_eq : tempLo = ((50 : ℝ) : EReal) := by
  simp [Ideal.ofBits, Ideal.ieee, -EReal.coe_mul]; norm_num

theorem tempHi_eq : tempHi = ((5000 : ℝ) : EReal) := by
  simp [Ideal.ofBits, Ideal.ieee, -EReal.coe_mul]; norm_num

/-- The floor of the span, `8589935 * 2 ^ (-33)`, a little above `1e-3`. -/
def eps : ℝ := 8589935 / 8589934592

theorem eps_pos : 0 < eps := by unfold eps; norm_num

theorem spanFloor_eq : spanFloor = (eps : EReal) := by
  unfold eps
  simp [Ideal.ofBits, Ideal.ieee, -EReal.coe_mul]; norm_num

/-! ### Coercions through finite sums and the score -/

/-- The coercion `ℝ → EReal` commutes with finite sums. -/
theorem coe_sum {ι : Type} (s : Finset ι) (f : ι → ℝ) :
    (∑ i ∈ s, (f i : EReal)) = ((∑ i ∈ s, f i : ℝ) : EReal) := by
  classical
  induction s using Finset.induction_on with
  | empty => simp
  | insert i s hi ih => rw [Finset.sum_insert hi, Finset.sum_insert hi, ih, EReal.coe_add]

/-- The real score. -/
def scoreR (x : δ → ℝ) (Y : κ → δ → ℝ) (b : κ → ℝ) (k : κ) : ℝ := (∑ d, x d * Y k d) - b k

omit [Nonempty κ] in
theorem score_coe (x : δ → ℝ) (Y : κ → δ → ℝ) (b : κ → ℝ) :
    score (fun d => (x d : EReal)) (fun k d => (Y k d : EReal)) (fun k => (b k : EReal))
      = fun k => (scoreR x Y b k : EReal) := by
  funext k
  simp only [score, scoreR]
  rw [EReal.coe_sub, ← coe_sum]
  simp only [EReal.coe_mul]

/-! ### Folds of `max` and `min` over coercions -/

/-- The fold of `max` from `⊥` over coercions is the coercion of the real maximum. -/
theorem fold_max_coe (f : κ → ℝ) :
    Finset.univ.fold max (⊥ : EReal) (fun k => (f k : EReal))
      = ((Finset.univ.sup' Finset.univ_nonempty f : ℝ) : EReal) := by
  apply le_antisymm
  · rw [Finset.fold_max_le]
    exact ⟨bot_le, fun k _ => EReal.coe_le_coe_iff.2 (Finset.le_sup' f (Finset.mem_univ k))⟩
  · obtain ⟨k, _, hk⟩ := Finset.exists_mem_eq_sup' Finset.univ_nonempty f
    rw [hk, Finset.le_fold_max]
    exact Or.inr ⟨k, Finset.mem_univ k, le_rfl⟩

/-- The fold of `min` from `⊤` over coercions is the coercion of the real minimum. -/
theorem fold_min_coe (f : κ → ℝ) :
    Finset.univ.fold min (⊤ : EReal) (fun k => (f k : EReal))
      = ((Finset.univ.inf' Finset.univ_nonempty f : ℝ) : EReal) := by
  apply le_antisymm
  · obtain ⟨k, _, hk⟩ := Finset.exists_mem_eq_inf' Finset.univ_nonempty f
    rw [hk, Finset.fold_min_le]
    exact Or.inr ⟨k, Finset.mem_univ k, le_rfl⟩
  · rw [Finset.le_fold_min]
    exact ⟨le_top, fun k _ => EReal.coe_le_coe_iff.2 (Finset.inf'_le f (Finset.mem_univ k))⟩

/-! ### The real quantities of a row of real scores -/

/-- The maximum and the minimum of the row. -/
def maxR (a : κ → ℝ) : ℝ := Finset.univ.sup' Finset.univ_nonempty a
def minR (a : κ → ℝ) : ℝ := Finset.univ.inf' Finset.univ_nonempty a

/-- The temperature. -/
def tempR (a : κ → ℝ) : ℝ := min 5000 (max 50 (50 * (1 / max (maxR a - minR a) eps)))

/-- The temperature is at least `min 5000 50`, so positive. -/
theorem tempR_pos (a : κ → ℝ) : 0 < tempR a := by
  unfold tempR
  exact lt_min (by norm_num) (lt_of_lt_of_le (by norm_num) (le_max_left _ _))

theorem rowMax_coe (a : κ → ℝ) : rowMax (fun k => (a k : EReal)) = (maxR a : EReal) := by
  unfold rowMax maxR
  rw [negInf_eq]
  exact fold_max_coe a

theorem rowMin_coe (a : κ → ℝ) : rowMin (fun k => (a k : EReal)) = (minR a : EReal) := by
  unfold rowMin minR
  rw [posInf_eq]
  exact fold_min_coe a

theorem temp_coe (a : κ → ℝ) : temp (fun k => (a k : EReal)) = (tempR a : EReal) := by
  have hne : max (maxR a - minR a) eps ≠ 0 := ne_of_gt (lt_max_of_lt_right eps_pos)
  unfold temp tempR
  rw [rowMax_coe, rowMin_coe, tempLo_eq, tempHi_eq, spanFloor_eq, ← EReal.coe_sub,
    ← EReal.coe_strictMono.monotone.map_max, Ideal.div_coe hne, ← EReal.coe_mul,
    ← EReal.coe_strictMono.monotone.map_max, ← EReal.coe_strictMono.monotone.map_min]

/-- The maximum of the scaled row is the scaled maximum, the scale being positive. -/
theorem sup'_mul_right (a : κ → ℝ) {t : ℝ} (ht : 0 < t) :
    Finset.univ.sup' Finset.univ_nonempty (fun k => a k * t) = maxR a * t := by
  unfold maxR
  apply le_antisymm
  · exact Finset.sup'_le _ _ fun k hk => mul_le_mul_of_nonneg_right (Finset.le_sup' a hk) ht.le
  · obtain ⟨k, hk, h⟩ := Finset.exists_mem_eq_sup' Finset.univ_nonempty a
    rw [h]
    exact Finset.le_sup' (fun k => a k * t) hk

/-- The unnormalised weight, and the sum of the weights. -/
def wR (a : κ → ℝ) (k : κ) : ℝ := Real.exp (tempR a * (a k - maxR a))
def sumR (a : κ → ℝ) : ℝ := ∑ k, wR a k

theorem sumR_pos (a : κ → ℝ) : 0 < sumR a :=
  Finset.sum_pos (fun k _ => Real.exp_pos _) Finset.univ_nonempty

theorem kWeight_coe (a : κ → ℝ) (k : κ) :
    kWeight (fun k => (a k : EReal)) k = (wR a k : EReal) := by
  simp only [kWeight, wR]
  rw [temp_coe, rowMax_coe, ← EReal.coe_sub, ← EReal.coe_mul, Ideal.exp_coe]

/-- Scaling then shifting by the scaled maximum is shifting by the maximum then scaling. -/
theorem rWeight_coe (a : κ → ℝ) (k : κ) :
    rWeight (fun k => (a k : EReal)) k = (wR a k : EReal) := by
  simp only [rWeight, wR]
  rw [temp_coe, negInf_eq]
  simp only [← EReal.coe_mul]
  rw [fold_max_coe (fun k' => a k' * tempR a), sup'_mul_right a (tempR_pos a),
    max_eq_right bot_le, ← EReal.coe_sub, Ideal.exp_coe,
    show a k * tempR a - maxR a * tempR a = tempR a * (a k - maxR a) by ring]

theorem rWeight_eq_kWeight (a : κ → ℝ) :
    rWeight (fun k => (a k : EReal)) = kWeight (fun k => (a k : EReal)) := by
  funext k
  rw [rWeight_coe, kWeight_coe]

theorem kInv_coe (a : κ → ℝ) : kInv (fun k => (a k : EReal)) = ((1 / sumR a : ℝ) : EReal) := by
  have hne : (∑ k, wR a k) ≠ 0 := (sumR_pos a).ne'
  simp only [kInv, kWeight_coe]
  rw [coe_sum, fOne_eq, Ideal.div_coe hne, one_mul, sumR]

theorem rProb_coe (a : κ → ℝ) (k : κ) :
    rProb (fun k => (a k : EReal)) k = ((wR a k * (1 / sumR a) : ℝ) : EReal) := by
  have hne : (∑ k, wR a k) ≠ 0 := (sumR_pos a).ne'
  simp only [rProb, rWeight_coe]
  rw [coe_sum, fZero_eq, zero_add, Ideal.div_coe hne, ← EReal.coe_mul, sumR]

/-- On real inputs the kernel's soft choice is the reference's. -/
theorem choice_agree (x : δ → ℝ) (Y : κ → δ → ℝ) (b : κ → ℝ) (d : δ) :
    kChoice (score (fun d => (x d : EReal)) (fun k d => (Y k d : EReal)) (fun k => (b k : EReal)))
        (fun k d => (Y k d : EReal)) d
      = rChoice (score (fun d => (x d : EReal)) (fun k d => (Y k d : EReal)) (fun k => (b k : EReal)))
        (fun k d => (Y k d : EReal)) d := by
  rw [score_coe]
  simp only [kChoice, rChoice, kWeight_coe, rProb_coe, kInv_coe, ← EReal.coe_mul, coe_sum]
  congr 1
  rw [Finset.sum_mul]
  exact Finset.sum_congr rfl fun k _ => by ring

/-- On real inputs the kernel's soft value is the reference's. -/
theorem value_agree (x : δ → ℝ) (Y : κ → δ → ℝ) (b : κ → ℝ) :
    kValue (fun d => (x d : EReal))
        (score (fun d => (x d : EReal)) (fun k d => (Y k d : EReal)) (fun k => (b k : EReal)))
        (fun k d => (Y k d : EReal)) (fun k => (b k : EReal))
      = rValue (score (fun d => (x d : EReal)) (fun k d => (Y k d : EReal)) (fun k => (b k : EReal))) := by
  rw [score_coe]
  simp only [kValue, rValue, kChoice, kWeight_coe, rProb_coe, kInv_coe, fZero_eq, zero_add,
    ← EReal.coe_mul, coe_sum, ← EReal.coe_sub]
  congr 1
  -- in ℝ, with `e = wR a` and `c = 1 / sumR a`: expand both sides into double sums over `k` and `d`
  have h1 : ∀ d, x d * ((∑ k, wR (scoreR x Y b) k * Y k d) * (1 / sumR (scoreR x Y b)))
      = ∑ k, wR (scoreR x Y b) k * (1 / sumR (scoreR x Y b)) * (x d * Y k d) := by
    intro d
    rw [Finset.sum_mul, Finset.mul_sum]
    exact Finset.sum_congr rfl fun k _ => by ring
  have h2 : ∀ k, wR (scoreR x Y b) k * (1 / sumR (scoreR x Y b)) * scoreR x Y b k
      = (∑ d, wR (scoreR x Y b) k * (1 / sumR (scoreR x Y b)) * (x d * Y k d))
        - 1 / sumR (scoreR x Y b) * (wR (scoreR x Y b) k * b k) := by
    intro k
    rw [scoreR, mul_sub, Finset.mul_sum]
    ring
  simp only [h1, h2]
  rw [Finset.sum_sub_distrib, Finset.sum_comm, Finset.mul_sum]

end Cert.SoftAssign

end
-- ==== Proof.Bridge.lean ====
/-
  On finite argument arrays the kernel's arrangement of the two result arrays is the reference's,
  index by index: the rows of the arrays are coercions of real rows, where the two arrangements agree.
-/
import proofs.«169335_j88089779241353_2_alg».proof.Proof.Spec
import proofs.«169335_j88089779241353_2_alg».proof.Proof.Algebra

noncomputable section

namespace Cert.SoftAssign

open Idealize.ShloMosaic ValueIdx

variable (X : (⟨2, ![16384, 64]⟩ : Shape).Idx → EReal) (Y : (⟨2, ![4096, 64]⟩ : Shape).Idx → EReal)
  (b : (⟨1, ![4096]⟩ : Shape).Idx → EReal)

/-- The soft choice: the kernel's arrangement is the reference's. -/
theorem choiceArr_eq_ref (hX : ∀ i, ∃ r : ℝ, X i = (r : EReal)) (hY : ∀ i, ∃ r : ℝ, Y i = (r : EReal))
    (hB : ∀ i, ∃ r : ℝ, b i = (r : EReal)) (i : (⟨2, ![16384, 64]⟩ : Shape).Idx) :
    choiceArr X Y b i = rChoice (scores X Y b (i 0)) (codes Y) (i 1) := by
  choose xr hx using hX
  choose yr hy using hY
  choose br hb using hB
  have eX : qRow X (i 0) = fun d : Fin 64 => ((xr (ix2 (i 0) d) : ℝ) : EReal) := funext fun d => hx _
  have eY : codes Y = fun (k : Fin 4096) (d : Fin 64) => ((yr (ix2 k d) : ℝ) : EReal) := funext fun k => funext fun d => hy _
  have eB : icpt b = fun k : Fin 4096 => ((br (ix1 k) : ℝ) : EReal) := funext fun k => hb _
  unfold choiceArr
  show kChoice (score (qRow X (i 0)) (codes Y) (icpt b)) (codes Y) (i 1) = rChoice (score (qRow X (i 0)) (codes Y) (icpt b)) (codes Y) (i 1)
  rw [eX, eY, eB]
  exact choice_agree _ _ _ _

/-- The soft value: the kernel's arrangement is the reference's. -/
theorem valueArr_eq_ref (hX : ∀ i, ∃ r : ℝ, X i = (r : EReal)) (hY : ∀ i, ∃ r : ℝ, Y i = (r : EReal))
    (hB : ∀ i, ∃ r : ℝ, b i = (r : EReal)) (i : (⟨1, ![16384]⟩ : Shape).Idx) :
    valueArr X Y b i = rValue (scores X Y b (i 0)) := by
  choose xr hx using hX
  choose yr hy using hY
  choose br hb using hB
  have eX : qRow X (i 0) = fun d : Fin 64 => ((xr (ix2 (i 0) d) : ℝ) : EReal) := funext fun d => hx _
  have eY : codes Y = fun (k : Fin 4096) (d : Fin 64) => ((yr (ix2 k d) : ℝ) : EReal) := funext fun k => funext fun d => hy _
  have eB : icpt b = fun k : Fin 4096 => ((br (ix1 k) : ℝ) : EReal) := funext fun k => hb _
  unfold valueArr
  show kValue (qRow X (i 0)) (score (qRow X (i 0)) (codes Y) (icpt b)) (codes Y) (icpt b) = rValue (score (qRow X (i 0)) (codes Y) (icpt b))
  rw [eX, eY, eB]
  exact value_agree _ _ _

end Cert.SoftAssign

end
-- ==== Proof.Finite.lean ====
/-
  The precondition says every entry of the three argument arrays is finite: each is a real number.
-/
import proofs.«169335_j88089779241353_2_alg».proof.Pre_finite_inputs
import proofs.«169335_j88089779241353_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.SoftAssign

open Idealize.ShloMosaic

/-- The scalar shape has exactly one index. -/
private instance : Subsingleton Cert.Pre_finite_inputs.S_.Idx := ⟨fun _ _ => funext fun d => d.elim0⟩

/-- The pattern `0x7F800000` (sign 0, exponent all ones, fraction 0) denotes `+∞`. -/
private theorem inf_pattern : Ideal.ofBits .f32 0x7F800000#32 = (⊤ : EReal) := by
  simp [Ideal.ofBits, Ideal.ieee]

/-- An extended real whose absolute value `max x (-x)` lies strictly below `⊤` is a real:
    at `⊥` and at `⊤` the absolute value is `⊤` itself. -/
private theorem real_of_abs_lt_top (x : EReal) (h : max x (-x) < ⊤) : ∃ r : ℝ, x = (r : EReal) := by
  induction x using EReal.rec with
  | bot => simp at h
  | coe r => exact ⟨r, rfl⟩
  | top => simp at h

/-- One element of the test `|x| < +∞` that answered 1: that element is a real. -/
private theorem real_of_cmp (x : Ideal .f32)
    (h : FloatOps.cmpf .olt (FloatOps.hostAbsf x) (FloatOps.ofBits (F := Ideal) .f32 0x7F800000#32) = 1#1) :
    ∃ r : ℝ, x = (r : EReal) := by
  change Ideal.cmp .olt (max x (-x)) (Ideal.ofBits .f32 0x7F800000#32) = 1#1 at h
  rw [inf_pattern] at h
  change BitVec.ofBool (decide (max x (-x) < (⊤ : EReal))) = 1#1 at h
  by_cases hlt : max x (-x) < ⊤
  · exact real_of_abs_lt_top x hlt
  · rw [decide_eq_false hlt] at h
    exact absurd h (by decide)

/-- `jnp.all (|A| < +∞)` that answered 1, read at one index `i` of `A`. -/
private theorem all_real {s : Shape} {axes : List (Fin s.rank)} (A : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf A) (broadcastInDim s ![] hb (constant Cert.Pre_finite_inputs.S_ .f32 0x7F800000#32)))
          (constantI Cert.Pre_finite_inputs.S_ 1 1#1) hr hu ValueIdx.ix0 = 1#1)
    (i : s.Idx) : ∃ r : ℝ, A i = (r : EReal) := by
  have hi := Host.reduce_andi_all _ _ hr hu _ e i
  exact real_of_cmp (A i) hi

/-- If `finite_inputs` answers all ones, every entry of every argument array is (the coercion of) a real. -/
theorem real_of_pre (X : FVec Ideal Cert.Pre_finite_inputs.S16384x64 .f32) (Y : FVec Ideal Cert.Pre_finite_inputs.S4096x64 .f32)
    (b : FVec Ideal Cert.Pre_finite_inputs.S4096 .f32)
    (h : Cert.Pre_finite_inputs.fn (F := Ideal) X Y b = fun _ => 1#1) :
    (∀ i, ∃ r : ℝ, X i = (r : EReal)) ∧ (∀ i, ∃ r : ℝ, Y i = (r : EReal)) ∧ (∀ i, ∃ r : ℝ, b i = (r : EReal)) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  exact ⟨all_real X _ _ _ h1, all_real Y _ _ _ h2, all_real b _ _ _ h3⟩

end Cert.SoftAssign

end
-- ==== Proof.RefRead.lean ====
/-
  The reference's two results, read at an index, are the reference's arrangement of `Spec.lean`
  on the rows of the argument arrays.
-/
import proofs.«169335_j88089779241353_2_alg».proof.Proof.Gen.ReferenceIdeal.Read
import proofs.«169335_j88089779241353_2_alg».proof.Proof.Spec
import Idealize.ShloMosaic.Lib.ValueIdx
import Idealize.ShloMosaic.PureOps.Ideal.Laws
import Idealize.ShloMosaic.PureOps.Reduce

noncomputable section

namespace Cert.SoftAssign

open Idealize.ShloMosaic Cert.ReferenceIdeal Cert.ReferenceIdeal.Read

namespace RefRead

variable (X : (⟨S16384x64, .f32⟩ : BufTy).Contents (Elt Ideal)) (Y : (⟨S4096x64, .f32⟩ : BufTy).Contents (Elt Ideal))
    (b : (⟨S4096, .f32⟩ : BufTy).Contents (Elt Ideal))

/-- Stage 3 at `(r, k)`: the score of code vector `k` for query row `r`. -/
theorem read_v3 (r : Fin 16384) (k : Fin 4096) :
    val_main_v3 (F := Ideal) X Y b (ValueIdx.ix2 r k) = scores X Y b r k := by
  rw [val_main_v3_apply, val_main_v0_apply, val_main_v2_apply, val_main_v1_apply, Ideal.subf_def]
  have e1 : ∀ d : Fin 64, lidx_main_v0 (ValueIdx.ix2 r k) d = ValueIdx.ix2 r d := fun d =>
    funext fun a => Fin.ext (by match a with | ⟨0, _⟩ => rfl | ⟨1, _⟩ => rfl)
  have e2 : ∀ d : Fin 64, ridx_main_v0 (ValueIdx.ix2 r k) d = ValueIdx.ix2 k d := fun d =>
    funext fun a => Fin.ext (by match a with | ⟨0, _⟩ => rfl | ⟨1, _⟩ => rfl)
  have e3 : idx_main_v1 (idx_main_v2 (ValueIdx.ix2 r k)) = ValueIdx.ix1 k :=
    funext fun a => Fin.ext (by match a with | ⟨0, _⟩ => rfl)
  simp only [e1, e2, e3]
  rfl

/-- The shape fact naming the inserted index of a reduction along axis 1. -/
theorem redAx1 : S16384x4096.Reduces [1] S16384 := by decide

/-- Row `r` with coordinate `k` inserted on axis 1 is `(r, k)`. -/
theorem lift_ix (r : Fin 16384) (k : Fin 4096) :
    redAx1.lift (ValueIdx.ix1 r) k = ValueIdx.ix2 r k :=
  funext fun a => Fin.ext (by match a with | ⟨0, _⟩ => rfl | ⟨1, _⟩ => rfl)

/-- A commutative and associative reduction along axis 1, read at row `r`: the fold over the row's
    coordinates from the initial value. -/
theorem reduce_row (f : EReal → EReal → EReal) [Std.Commutative f] [Std.Associative f]
    (x : S16384x4096.Idx → EReal) (init : S_.Idx → EReal) (r : Fin 16384) :
    Host.reduce f x init Facts₀.reducesTo_S16384x4096_S16384_d1 Facts₀.h_S_ (ValueIdx.ix1 r)
      = (Finset.univ : Finset (Fin 4096)).fold f (init (Shape.Idx.first Facts₀.h_S_))
          (fun k : Fin 4096 => x (ValueIdx.ix2 r k)) := by
  rw [Host.reduce_eq_fold_single f x init Facts₀.reducesTo_S16384x4096_S16384_d1 redAx1 Facts₀.h_S_ (ValueIdx.ix1 r)]
  show (Finset.univ : Finset (Fin 4096)).fold f (init (Shape.Idx.first Facts₀.h_S_))
      (fun k : Fin 4096 => x (redAx1.lift (ValueIdx.ix1 r) k)) = _
  congr 1
  funext k
  rw [lift_ix]

/-- Stage 4 at `r`: the largest score of row `r`. -/
theorem read_v4 (r : Fin 16384) :
    val_main_v4 (F := Ideal) X Y b (ValueIdx.ix1 r) = rowMax (scores X Y b r) := by
  unfold val_main_v4
  rw [reduce_row]
  unfold rowMax
  show Finset.univ.fold max negInf (fun k : Fin 4096 => val_main_v3 (F := Ideal) X Y b (ValueIdx.ix2 r k)) = _
  congr 1
  funext k
  rw [read_v3]

/-- Stage 6 at `r`: the smallest score of row `r`. -/
theorem read_v6 (r : Fin 16384) :
    val_main_v6 (F := Ideal) X Y b (ValueIdx.ix1 r) = rowMin (scores X Y b r) := by
  unfold val_main_v6
  rw [reduce_row]
  unfold rowMin
  show Finset.univ.fold min posInf (fun k : Fin 4096 => val_main_v3 (F := Ideal) X Y b (ValueIdx.ix2 r k)) = _
  congr 1
  funext k
  rw [read_v3]

/-- Stage 13 at `(r, 0)`: the adaptive temperature of row `r`. -/
theorem read_v13 (r : Fin 16384) :
    val_main_v13 (F := Ideal) X Y b (ValueIdx.ix2 r (0 : Fin 1)) = temp (scores X Y b r) := by
  rw [val_main_v13_apply, val_main_call0_v4_apply, val_main_call0_v3_apply, val_main_cst_4_apply,
    val_main_call0_v2_apply, val_main_call0_v1_apply, val_main_call0_v0_apply, val_main_cst_3_apply,
    val_main_v12_apply, val_main_v11_apply, val_main_cst_2_apply, val_main_v10_apply, val_main_v9_apply,
    val_main_cst_1_apply, val_main_v8_apply, val_main_v5_apply, val_main_v7_apply]
  have e5 : idx_main_v5 (ValueIdx.ix2 r (0 : Fin 1)) = ValueIdx.ix1 r :=
    funext fun a => Fin.ext (by match a with | ⟨0, _⟩ => rfl)
  have e7 : idx_main_v7 (ValueIdx.ix2 r (0 : Fin 1)) = ValueIdx.ix1 r :=
    funext fun a => Fin.ext (by match a with | ⟨0, _⟩ => rfl)
  rw [e5, e7, read_v4, read_v6]
  rfl

/-- Stage 15 at `(r, k)`: the score scaled by the row's temperature. -/
theorem read_v15 (r : Fin 16384) (k : Fin 4096) :
    val_main_v15 (F := Ideal) X Y b (ValueIdx.ix2 r k) = scores X Y b r k * temp (scores X Y b r) := by
  rw [val_main_v15_apply, val_main_v14_apply, read_v3]
  have e14 : idx_main_v14 (ValueIdx.ix2 r k) = ValueIdx.ix2 r (0 : Fin 1) :=
    funext fun a => Fin.ext (by match a with | ⟨0, _⟩ => rfl | ⟨1, _⟩ => rfl)
  rw [e14, read_v13]
  rfl

/-- Stage 16 at `r`: the largest scaled score of row `r`. -/
theorem read_v16 (r : Fin 16384) :
    val_main_v16 (F := Ideal) X Y b (ValueIdx.ix1 r)
      = Finset.univ.fold max negInf fun k' : Fin 4096 => scores X Y b r k' * temp (scores X Y b r) := by
  unfold val_main_v16
  rw [reduce_row]
  show Finset.univ.fold max negInf (fun k : Fin 4096 => val_main_v15 (F := Ideal) X Y b (ValueIdx.ix2 r k)) = _
  congr 1
  funext k
  rw [read_v15]

/-- Stage 22 at `(r, k)`: the unnormalised weight of code vector `k` in row `r`. -/
theorem read_v22 (r : Fin 16384) (k : Fin 4096) :
    val_main_v22 (F := Ideal) X Y b (ValueIdx.ix2 r k) = rWeight (scores X Y b r) k := by
  rw [val_main_v22_apply, val_main_v21_apply, read_v15, val_main_v20_apply]
  have e20 : idx_main_v20 (ValueIdx.ix2 r k) = ValueIdx.ix2 r (0 : Fin 1) :=
    funext fun a => Fin.ext (by match a with | ⟨0, _⟩ => rfl | ⟨1, _⟩ => rfl)
  have e19 : idx_main_v19 (ValueIdx.ix2 r (0 : Fin 1)) = ValueIdx.ix1 r :=
    funext fun a => Fin.ext (by match a with | ⟨0, _⟩ => rfl)
  rw [e20, val_main_v19_apply, e19, val_main_v18_apply, val_main_v17_apply, val_main_cst_6_apply, read_v16]
  rfl

/-- Stage 26 at `(r, k)`: the normalised weight of code vector `k` in row `r`. -/
theorem read_v26 (r : Fin 16384) (k : Fin 4096) :
    val_main_v26 (F := Ideal) X Y b (ValueIdx.ix2 r k) = rProb (scores X Y b r) k := by
  rw [val_main_v26_apply, read_v22, val_main_v25_apply]
  have e25 : idx_main_v25 (ValueIdx.ix2 r k) = ValueIdx.ix2 r (0 : Fin 1) :=
    funext fun a => Fin.ext (by match a with | ⟨0, _⟩ => rfl | ⟨1, _⟩ => rfl)
  have e24 : idx_main_v24 (ValueIdx.ix2 r (0 : Fin 1)) = ValueIdx.ix1 r :=
    funext fun a => Fin.ext (by match a with | ⟨0, _⟩ => rfl)
  have e23 : ∀ k' : Fin 4096, idx_main_v23 (ValueIdx.ix1 r) k' = ValueIdx.ix2 r k' := fun k' =>
    funext fun a => Fin.ext (by match a with | ⟨0, _⟩ => rfl | ⟨1, _⟩ => rfl)
  rw [e25, val_main_v24_apply, e24, val_main_v23_apply, val_main_cst_7_apply]
  simp only [e23, read_v22]
  rfl

end RefRead

open RefRead

/-- The reference's soft choice at `i = (r, d)`. -/
theorem ref_choice (X : (⟨S16384x64, .f32⟩ : BufTy).Contents (Elt Ideal)) (Y : (⟨S4096x64, .f32⟩ : BufTy).Contents (Elt Ideal))
    (b : (⟨S4096, .f32⟩ : BufTy).Contents (Elt Ideal)) (i : S16384x64.Idx) :
    val_main_v29 (F := Ideal) X Y b i = rChoice (scores X Y b (i 0)) (codes Y) (i 1) := by
  obtain ⟨r, d, rfl⟩ : ∃ (r : Fin 16384) (d : Fin 64), i = ValueIdx.ix2 r d := ⟨i 0, i 1, ValueIdx.eq_ix2 i⟩
  rw [val_main_v29_apply]
  show _ = ∑ k : Fin 4096, rProb (scores X Y b r) k * Y (ValueIdx.ix2 k d)
  refine Finset.sum_congr rfl fun k _ => ?_
  have el : lidx_main_v29 (ValueIdx.ix2 r d) k = ValueIdx.ix2 r k :=
    funext fun a => Fin.ext (by match a with | ⟨0, _⟩ => rfl | ⟨1, _⟩ => rfl)
  have er : ridx_main_v29 (ValueIdx.ix2 r d) k = ValueIdx.ix2 k d :=
    funext fun a => Fin.ext (by match a with | ⟨0, _⟩ => rfl | ⟨1, _⟩ => rfl)
  rw [el, er, read_v26]

/-- The reference's soft value at `i = (r)`. -/
theorem ref_value (X : (⟨S16384x64, .f32⟩ : BufTy).Contents (Elt Ideal)) (Y : (⟨S4096x64, .f32⟩ : BufTy).Contents (Elt Ideal))
    (b : (⟨S4096, .f32⟩ : BufTy).Contents (Elt Ideal)) (i : S16384.Idx) :
    val_main_v28 (F := Ideal) X Y b i = rValue (scores X Y b (i 0)) := by
  obtain ⟨r, rfl⟩ : ∃ r : Fin 16384, i = ValueIdx.ix1 r := ⟨i 0, ValueIdx.eq_ix1 i⟩
  rw [val_main_v28_apply, val_main_cst_8_apply]
  show _ = fZero + ∑ k : Fin 4096, rProb (scores X Y b r) k * scores X Y b r k
  refine congrArg (_ + ·) (Finset.sum_congr rfl fun k _ => ?_)
  have e28 : idx_main_v28 (ValueIdx.ix1 r) k = ValueIdx.ix2 r k :=
    funext fun a => Fin.ext (by match a with | ⟨0, _⟩ => rfl | ⟨1, _⟩ => rfl)
  rw [e28, val_main_v27_apply, read_v26, read_v3]
  rfl

end Cert.SoftAssign

end
-- ==== Proof.KerLayout.lean ====
/-
  The kernel body's layout operations and row reductions, read at an index: a row's maximum,
  minimum and sum over the 4096 scores, the column forms `[256] → [256, 1] → [256, n]` through
  which a per-row quantity is spread along the row, and the intercept row `[1, 4096] → [256, 4096]`.
-/
import proofs.«169335_j88089779241353_2_alg».proof.Proof.Gen.KernelIdeal
import proofs.«169335_j88089779241353_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.SoftAssign.Ker

open Idealize.ShloMosaic Cert.KernelIdeal Cert.KernelIdeal.Facts₀ ValueIdx

/-- A `minimumf` reduction over one axis is the fold of `min` over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The largest entry of row `p`. -/
theorem rowMax_read (A : FVec Ideal S256x4096 .f32) (p : Fin 256) :
    multiReduction .maximumf [1] S256 A 0xFF800000#32 reduces_S256x4096_S256 (.inl rfl) rfl (ix1 p)
      = rowMax (fun k : Fin 4096 => A (ix2 p k)) := by
  refine (Ideal.multiReduction_maximumf_single A 0xFF800000#32 reduces_S256x4096_S256 (.inl rfl) rfl (ix1 p)).trans ?_
  unfold rowMax
  refine congrArg (Finset.univ.fold max _) (funext fun k => congrArg A (funext fun a => Fin.ext ?_))
  match a with
  | ⟨0, _⟩ => rfl
  | ⟨1, _⟩ => rfl

/-- The smallest entry of row `p`. -/
theorem rowMin_read (A : FVec Ideal S256x4096 .f32) (p : Fin 256) :
    multiReduction .minimumf [1] S256 A 0x7F800000#32 reduces_S256x4096_S256 (.inl rfl) rfl (ix1 p)
      = rowMin (fun k : Fin 4096 => A (ix2 p k)) := by
  refine (multiReduction_minimumf_single A 0x7F800000#32 reduces_S256x4096_S256 (.inl rfl) rfl (ix1 p)).trans ?_
  unfold rowMin
  refine congrArg (Finset.univ.fold min _) (funext fun k => congrArg A (funext fun a => Fin.ext ?_))
  match a with
  | ⟨0, _⟩ => rfl
  | ⟨1, _⟩ => rfl

/-- The sum of row `p` of a `[256, 4096]` vector. -/
theorem rowSum_read (A : FVec Ideal S256x4096 .f32) (p : Fin 256) :
    multiReduction .add [1] S256 A 0x00000000#32 reduces_S256x4096_S256 (.inl rfl) rfl (ix1 p)
      = ∑ k : Fin 4096, A (ix2 p k) := by
  refine (Ideal.multiReduction_add_single A 0x00000000#32 reduces_S256x4096_S256 (.inl rfl) rfl (ix1 p)).trans ?_
  refine Finset.sum_congr rfl fun k _ => congrArg A (funext fun a => Fin.ext ?_)
  match a with
  | ⟨0, _⟩ => rfl
  | ⟨1, _⟩ => rfl

/-- The sum of row `p` of a `[256, 64]` vector. -/
theorem rowSum64_read (A : FVec Ideal S256x64 .f32) (p : Fin 256) :
    multiReduction .add [1] S256 A 0x00000000#32 reduces_S256x64_S256 (.inl rfl) rfl (ix1 p)
      = ∑ d : Fin 64, A (ix2 p d) := by
  refine (Ideal.multiReduction_add_single A 0x00000000#32 reduces_S256x64_S256 (.inl rfl) rfl (ix1 p)).trans ?_
  refine Finset.sum_congr rfl fun k _ => congrArg A (funext fun a => Fin.ext ?_)
  match a with
  | ⟨0, _⟩ => rfl
  | ⟨1, _⟩ => rfl

/-- A vector of 256 entries seen as a column. -/
theorem toCol_read {α : Type} (v : S256.Idx → α) (p : Fin 256) (q : Fin 1) :
    shapeCast S256x1 v shapeCasts_S256_S256x1 (ix2 p q) = v (ix1 p) := by
  refine shapeCast_apply v _ (ix2 p q) (ix1 p) ?_
  rw [Shape.rowMajor_val_one, Shape.rowMajor_val_two]
  show p.val = p.val * 1 + q.val
  omega

/-- A column seen as a vector of 256 entries. -/
theorem ofCol_read {α : Type} (w : S256x1.Idx → α) (p : Fin 256) :
    shapeCast S256 w shapeCasts_S256x1_S256 (ix1 p) = w (ix2 p 0) := by
  refine shapeCast_apply w _ (ix1 p) (ix2 p 0) ?_
  rw [Shape.rowMajor_val_one, Shape.rowMajor_val_two]
  show p.val * 1 + 0 = p.val
  omega

/-- A column spread along rows of 4096. -/
theorem spreadCol4096_read {α : Type} (w : S256x1.Idx → α) (p : Fin 256) (k : Fin 4096) :
    broadcastTo S256x4096 w broadcasts_S256x1_S256x4096 (ix2 p k) = w (ix2 p 0) := by
  refine broadcastTo_apply w _ (ix2 p k) (ix2 p 0) fun a => ?_
  match a with
  | ⟨0, _⟩ => show p.val = if (256 : Nat) = 1 then 0 else p.val; rw [if_neg (by decide)]
  | ⟨1, _⟩ => show 0 = if (1 : Nat) = 1 then 0 else k.val; rw [if_pos rfl]

/-- A column spread along rows of 64. -/
theorem spreadCol64_read {α : Type} (w : S256x1.Idx → α) (p : Fin 256) (d : Fin 64) :
    broadcastTo S256x64 w broadcasts_S256x1_S256x64 (ix2 p d) = w (ix2 p 0) := by
  refine broadcastTo_apply w _ (ix2 p d) (ix2 p 0) fun a => ?_
  match a with
  | ⟨0, _⟩ => show p.val = if (256 : Nat) = 1 then 0 else p.val; rw [if_neg (by decide)]
  | ⟨1, _⟩ => show 0 = if (1 : Nat) = 1 then 0 else d.val; rw [if_pos rfl]

/-- The intercept row repeated for each of the 256 rows. -/
theorem spreadRow_read {α : Type} (w : S1x4096.Idx → α) (p : Fin 256) (k : Fin 4096) :
    broadcastTo S256x4096 w broadcasts_S1x4096_S256x4096 (ix2 p k) = w (ix2 0 k) := by
  refine broadcastTo_apply w _ (ix2 p k) (ix2 0 k) fun a => ?_
  match a with
  | ⟨0, _⟩ => show 0 = if (1 : Nat) = 1 then 0 else p.val; rw [if_pos rfl]
  | ⟨1, _⟩ => show k.val = if (4096 : Nat) = 1 then 0 else k.val; rw [if_neg (by decide)]

end Cert.SoftAssign.Ker

end
-- ==== Proof.KerMatmul.lean ====
/-
  The kernel body's three matrix products into a zero accumulator, read at an index as plain sums:
  the scores' inner products `x · Yᵀ` (both operands contracted on their feature axis), and the two
  products of the weights with the code vectors `e · Y` and with the intercept column `e · b`.
-/
import proofs.«169335_j88089779241353_2_alg».proof.Proof.Gen.KernelIdeal
import Idealize.ShloMosaic.Lib.ValueIdx
import Idealize.ShloMosaic.PureOps.Ideal.Laws

noncomputable section

namespace Cert.SoftAssign.Ker

open Idealize.ShloMosaic Cert.KernelIdeal Cert.KernelIdeal.Facts₀ ValueIdx

/-! ### `x · Yᵀ`: `[256, 64] × [4096, 64] → [256, 4096]` -/

theorem lhsScore_0 (i : S256x4096.Idx) (q : dot_S256x64_S4096x64_S256x4096_1_1_0_0_n_n.contr.Idx) :
    (dot_S256x64_S4096x64_S256x4096_1_1_0_0_n_n.lhsIdx i q 0).val = (i 0).val := by
  unfold DotDims.lhsIdx
  rw [dif_neg (show ¬(0 : Fin S256x64.rank) ∈ dot_S256x64_S4096x64_S256x4096_1_1_0_0_n_n.lhsBatch by decide), dif_pos (show (0 : Fin S256x64.rank) ∈ dot_S256x64_S4096x64_S256x4096_1_1_0_0_n_n.lhsNonContracting by decide)]
  rfl
theorem lhsScore_1 (i : S256x4096.Idx) (q : dot_S256x64_S4096x64_S256x4096_1_1_0_0_n_n.contr.Idx) :
    (dot_S256x64_S4096x64_S256x4096_1_1_0_0_n_n.lhsIdx i q 1).val = (q ⟨0, by decide⟩).val :=
  dot_S256x64_S4096x64_S256x4096_1_1_0_0_n_n.lhsIdx_val_of_single rfl i q
theorem rhsScore_0 (i : S256x4096.Idx) (q : dot_S256x64_S4096x64_S256x4096_1_1_0_0_n_n.contr.Idx) :
    (dot_S256x64_S4096x64_S256x4096_1_1_0_0_n_n.rhsIdx i q 0).val = (i 1).val := by
  unfold DotDims.rhsIdx
  rw [dif_neg (show ¬(0 : Fin S4096x64.rank) ∈ dot_S256x64_S4096x64_S256x4096_1_1_0_0_n_n.rhsBatch by decide), dif_pos (show (0 : Fin S4096x64.rank) ∈ dot_S256x64_S4096x64_S256x4096_1_1_0_0_n_n.rhsNonContracting by decide)]
  rfl
theorem rhsScore_1 (i : S256x4096.Idx) (q : dot_S256x64_S4096x64_S256x4096_1_1_0_0_n_n.contr.Idx) :
    (dot_S256x64_S4096x64_S256x4096_1_1_0_0_n_n.rhsIdx i q 1).val = (q ⟨0, by decide⟩).val :=
  dot_S256x64_S4096x64_S256x4096_1_1_0_0_n_n.rhsIdx_val_of_single rfl i q

/-- Entry `(p, k)` of `x · Yᵀ` is the inner product of row `p` of `x` with row `k` of `Y`. -/
theorem inner_read (L : FVec Ideal S256x64 .bf16) (R : FVec Ideal S4096x64 .bf16) (p : Fin 256) (k : Fin 4096) :
    matmul dot_S256x64_S4096x64_S256x4096_1_1_0_0_n_n none L R (constant S256x4096 .f32 0x00000000#32) (ix2 p k)
      = ∑ d : Fin 64, L (ix2 p d) * R (ix2 k d) := by
  simp only [matmul]
  rw [Ideal.matmul_constant_zero_apply, ← Equiv.sum_comp (ValueIdx.contrEquiv1 dot_S256x64_S4096x64_S256x4096_1_1_0_0_n_n 64 rfl rfl).symm]
  refine Finset.sum_congr rfl fun d _ => ?_
  have hk := ValueIdx.contrEquiv1_symm_val dot_S256x64_S4096x64_S256x4096_1_1_0_0_n_n 64 rfl rfl d
  have el : dot_S256x64_S4096x64_S256x4096_1_1_0_0_n_n.lhsIdx (ix2 p k) ((ValueIdx.contrEquiv1 dot_S256x64_S4096x64_S256x4096_1_1_0_0_n_n 64 rfl rfl).symm d) = ix2 p d := funext fun a => Fin.ext (by
    match a with
    | ⟨0, _⟩ => exact lhsScore_0 _ _
    | ⟨1, _⟩ => exact (lhsScore_1 _ _).trans hk)
  have er : dot_S256x64_S4096x64_S256x4096_1_1_0_0_n_n.rhsIdx (ix2 p k) ((ValueIdx.contrEquiv1 dot_S256x64_S4096x64_S256x4096_1_1_0_0_n_n 64 rfl rfl).symm d) = ix2 k d := funext fun a => Fin.ext (by
    match a with
    | ⟨0, _⟩ => exact rhsScore_0 _ _
    | ⟨1, _⟩ => exact (rhsScore_1 _ _).trans hk)
  rw [el, er]

/-! ### `e · Y`: `[256, 4096] × [4096, 64] → [256, 64]` -/

theorem lhsMix_0 (i : S256x64.Idx) (q : dot_S256x4096_S4096x64_S256x64_1_0_0_1_n_n.contr.Idx) :
    (dot_S256x4096_S4096x64_S256x64_1_0_0_1_n_n.lhsIdx i q 0).val = (i 0).val := by
  unfold DotDims.lhsIdx
  rw [dif_neg (show ¬(0 : Fin S256x4096.rank) ∈ dot_S256x4096_S4096x64_S256x64_1_0_0_1_n_n.lhsBatch by decide), dif_pos (show (0 : Fin S256x4096.rank) ∈ dot_S256x4096_S4096x64_S256x64_1_0_0_1_n_n.lhsNonContracting by decide)]
  rfl
theorem lhsMix_1 (i : S256x64.Idx) (q : dot_S256x4096_S4096x64_S256x64_1_0_0_1_n_n.contr.Idx) :
    (dot_S256x4096_S4096x64_S256x64_1_0_0_1_n_n.lhsIdx i q 1).val = (q ⟨0, by decide⟩).val :=
  dot_S256x4096_S4096x64_S256x64_1_0_0_1_n_n.lhsIdx_val_of_single rfl i q
theorem rhsMix_0 (i : S256x64.Idx) (q : dot_S256x4096_S4096x64_S256x64_1_0_0_1_n_n.contr.Idx) :
    (dot_S256x4096_S4096x64_S256x64_1_0_0_1_n_n.rhsIdx i q 0).val = (q ⟨0, by decide⟩).val :=
  dot_S256x4096_S4096x64_S256x64_1_0_0_1_n_n.rhsIdx_val_of_single rfl i q
theorem rhsMix_1 (i : S256x64.Idx) (q : dot_S256x4096_S4096x64_S256x64_1_0_0_1_n_n.contr.Idx) :
    (dot_S256x4096_S4096x64_S256x64_1_0_0_1_n_n.rhsIdx i q 1).val = (i 1).val := by
  unfold DotDims.rhsIdx
  rw [dif_neg (show ¬(1 : Fin S4096x64.rank) ∈ dot_S256x4096_S4096x64_S256x64_1_0_0_1_n_n.rhsBatch by decide), dif_pos (show (1 : Fin S4096x64.rank) ∈ dot_S256x4096_S4096x64_S256x64_1_0_0_1_n_n.rhsNonContracting by decide)]
  rfl

/-- Entry `(p, d)` of `e · Y` is the combination of the code vectors' feature `d` with row `p`'s weights. -/
theorem mix_read (L : FVec Ideal S256x4096 .bf16) (R : FVec Ideal S4096x64 .bf16) (p : Fin 256) (d : Fin 64) :
    matmul dot_S256x4096_S4096x64_S256x64_1_0_0_1_n_n none L R (constant S256x64 .f32 0x00000000#32) (ix2 p d)
      = ∑ k : Fin 4096, L (ix2 p k) * R (ix2 k d) := by
  simp only [matmul]
  rw [Ideal.matmul_constant_zero_apply, ← Equiv.sum_comp (ValueIdx.contrEquiv1 dot_S256x4096_S4096x64_S256x64_1_0_0_1_n_n 4096 rfl rfl).symm]
  refine Finset.sum_congr rfl fun k _ => ?_
  have hk := ValueIdx.contrEquiv1_symm_val dot_S256x4096_S4096x64_S256x64_1_0_0_1_n_n 4096 rfl rfl k
  have el : dot_S256x4096_S4096x64_S256x64_1_0_0_1_n_n.lhsIdx (ix2 p d) ((ValueIdx.contrEquiv1 dot_S256x4096_S4096x64_S256x64_1_0_0_1_n_n 4096 rfl rfl).symm k) = ix2 p k := funext fun a => Fin.ext (by
    match a with
    | ⟨0, _⟩ => exact lhsMix_0 _ _
    | ⟨1, _⟩ => exact (lhsMix_1 _ _).trans hk)
  have er : dot_S256x4096_S4096x64_S256x64_1_0_0_1_n_n.rhsIdx (ix2 p d) ((ValueIdx.contrEquiv1 dot_S256x4096_S4096x64_S256x64_1_0_0_1_n_n 4096 rfl rfl).symm k) = ix2 k d := funext fun a => Fin.ext (by
    match a with
    | ⟨0, _⟩ => exact (rhsMix_0 _ _).trans hk
    | ⟨1, _⟩ => exact rhsMix_1 _ _)
  rw [el, er]

/-! ### `e · b`: `[256, 4096] × [4096, 1] → [256, 1]` -/

theorem lhsDot_0 (i : S256x1.Idx) (q : dot_S256x4096_S4096x1_S256x1_1_0_0_1_n_n.contr.Idx) :
    (dot_S256x4096_S4096x1_S256x1_1_0_0_1_n_n.lhsIdx i q 0).val = (i 0).val := by
  unfold DotDims.lhsIdx
  rw [dif_neg (show ¬(0 : Fin S256x4096.rank) ∈ dot_S256x4096_S4096x1_S256x1_1_0_0_1_n_n.lhsBatch by decide), dif_pos (show (0 : Fin S256x4096.rank) ∈ dot_S256x4096_S4096x1_S256x1_1_0_0_1_n_n.lhsNonContracting by decide)]
  rfl
theorem lhsDot_1 (i : S256x1.Idx) (q : dot_S256x4096_S4096x1_S256x1_1_0_0_1_n_n.contr.Idx) :
    (dot_S256x4096_S4096x1_S256x1_1_0_0_1_n_n.lhsIdx i q 1).val = (q ⟨0, by decide⟩).val :=
  dot_S256x4096_S4096x1_S256x1_1_0_0_1_n_n.lhsIdx_val_of_single rfl i q
theorem rhsDot_0 (i : S256x1.Idx) (q : dot_S256x4096_S4096x1_S256x1_1_0_0_1_n_n.contr.Idx) :
    (dot_S256x4096_S4096x1_S256x1_1_0_0_1_n_n.rhsIdx i q 0).val = (q ⟨0, by decide⟩).val :=
  dot_S256x4096_S4096x1_S256x1_1_0_0_1_n_n.rhsIdx_val_of_single rfl i q
theorem rhsDot_1 (i : S256x1.Idx) (q : dot_S256x4096_S4096x1_S256x1_1_0_0_1_n_n.contr.Idx) :
    (dot_S256x4096_S4096x1_S256x1_1_0_0_1_n_n.rhsIdx i q 1).val = (i 1).val := by
  unfold DotDims.rhsIdx
  rw [dif_neg (show ¬(1 : Fin S4096x1.rank) ∈ dot_S256x4096_S4096x1_S256x1_1_0_0_1_n_n.rhsBatch by decide), dif_pos (show (1 : Fin S4096x1.rank) ∈ dot_S256x4096_S4096x1_S256x1_1_0_0_1_n_n.rhsNonContracting by decide)]
  rfl

/-- Entry `(p, 0)` of `e · b` is the sum of the intercepts with row `p`'s weights. -/
theorem dot_read (L : FVec Ideal S256x4096 .bf16) (R : FVec Ideal S4096x1 .bf16) (p : Fin 256) (q : Fin 1) :
    matmul dot_S256x4096_S4096x1_S256x1_1_0_0_1_n_n none L R (constant S256x1 .f32 0x00000000#32) (ix2 p q)
      = ∑ k : Fin 4096, L (ix2 p k) * R (ix2 k q) := by
  simp only [matmul]
  rw [Ideal.matmul_constant_zero_apply, ← Equiv.sum_comp (ValueIdx.contrEquiv1 dot_S256x4096_S4096x1_S256x1_1_0_0_1_n_n 4096 rfl rfl).symm]
  refine Finset.sum_congr rfl fun k _ => ?_
  have hk := ValueIdx.contrEquiv1_symm_val dot_S256x4096_S4096x1_S256x1_1_0_0_1_n_n 4096 rfl rfl k
  have el : dot_S256x4096_S4096x1_S256x1_1_0_0_1_n_n.lhsIdx (ix2 p q) ((ValueIdx.contrEquiv1 dot_S256x4096_S4096x1_S256x1_1_0_0_1_n_n 4096 rfl rfl).symm k) = ix2 p k := funext fun a => Fin.ext (by
    match a with
    | ⟨0, _⟩ => exact lhsDot_0 _ _
    | ⟨1, _⟩ => exact (lhsDot_1 _ _).trans hk)
  have er : dot_S256x4096_S4096x1_S256x1_1_0_0_1_n_n.rhsIdx (ix2 p q) ((ValueIdx.contrEquiv1 dot_S256x4096_S4096x1_S256x1_1_0_0_1_n_n 4096 rfl rfl).symm k) = ix2 k q := funext fun a => Fin.ext (by
    match a with
    | ⟨0, _⟩ => exact (rhsDot_0 _ _).trans hk
    | ⟨1, _⟩ => exact rhsDot_1 _ _)
  rw [el, er]

end Cert.SoftAssign.Ker

end
-- ==== Proof.KerPay.lean ====
/-
  The kernel body's arithmetic, read at an index of its block: for the 256 query rows `x` of the block,
  all 4096 code vectors `Y`, the intercept row `b` and the intercept column `b'`, the stored choice block
  at `(p, d)` is the kernel's arrangement `kChoice` of row `p`'s scores, and the stored value block at `p`
  is `kValue`.
-/
import proofs.«169335_j88089779241353_2_alg».proof.Proof.Gen.KernelIdeal.Skeleton
import proofs.«169335_j88089779241353_2_alg».proof.Proof.Spec
import proofs.«169335_j88089779241353_2_alg».proof.Proof.KerLayout
import proofs.«169335_j88089779241353_2_alg».proof.Proof.KerMatmul

noncomputable section

namespace Cert.SoftAssign.Ker

open Idealize.ShloMosaic Cert.KernelIdeal Cert.KernelIdeal.Facts₀ ValueIdx

/-! ### The pieces of the body as vector terms -/

/-- The block's score matrix: `x · Yᵀ` minus the intercept row. -/
def scoreBlk (P0 : Vec Ideal S256x64 .f32) (P1 : Vec Ideal S4096x64 .bf16) (P2 : Vec Ideal S1x4096 .f32) : FVec Ideal S256x4096 .f32 :=
  subf (matmul dot_S256x64_S4096x64_S256x4096_1_1_0_0_n_n none (truncf .bf16 P0 bitsLt_bf16_f32) (Gen.k0_pay2 P1) (constant S256x4096 .f32 0x00000000#32))
    (broadcastTo S256x4096 (shapeCast S1x4096 P2 shapeCasts_S1x4096_S1x4096) broadcasts_S1x4096_S256x4096)

/-- Each row's largest and smallest score, as columns. -/
def maxCol (A : FVec Ideal S256x4096 .f32) : FVec Ideal S256x1 .f32 :=
  shapeCast S256x1 (multiReduction .maximumf [1] S256 A 0xFF800000#32 reduces_S256x4096_S256 (.inl rfl) rfl) shapeCasts_S256_S256x1
def minCol (A : FVec Ideal S256x4096 .f32) : FVec Ideal S256x1 .f32 :=
  shapeCast S256x1 (multiReduction .minimumf [1] S256 A 0x7F800000#32 reduces_S256x4096_S256 (.inl rfl) rfl) shapeCasts_S256_S256x1

/-- Each row's temperature, as a column. -/
def tempCol (A : FVec Ideal S256x4096 .f32) : FVec Ideal S256x1 .f32 :=
  minimumf (broadcast S256x1 (Scalar.ofBits (F := Ideal) .f32 0x459C4000#32))
    (maximumf (broadcast S256x1 (Scalar.ofBits (F := Ideal) .f32 0x42480000#32))
      (divf (broadcast S256x1 (Scalar.ofBits (F := Ideal) .f32 0x42480000#32))
        (maximumf (subf (maxCol A) (minCol A)) (broadcast S256x1 (Scalar.ofBits (F := Ideal) .f32 0x3A83126F#32)))))

/-- The unnormalised weights of the block. -/
def weightBlk (A : FVec Ideal S256x4096 .f32) : FVec Ideal S256x4096 .f32 :=
  exp (mulf (broadcastTo S256x4096 (tempCol A) broadcasts_S256x1_S256x4096)
    (subf A (broadcastTo S256x4096 (maxCol A) broadcasts_S256x1_S256x4096)))

/-- The reciprocal of each row's weight sum, as a column. -/
def invCol (E : FVec Ideal S256x4096 .f32) : FVec Ideal S256x1 .f32 :=
  divf (broadcast S256x1 (Scalar.ofBits (F := Ideal) .f32 0x3F800000#32))
    (shapeCast S256x1 (multiReduction .add [1] S256 E 0x00000000#32 reduces_S256x4096_S256 (.inl rfl) rfl) shapeCasts_S256_S256x1)

theorem pay3_eq (P0 : Vec Ideal S256x64 .f32) (P1 : Vec Ideal S4096x64 .bf16) (P2 : Vec Ideal S1x4096 .f32) :
    Gen.k0_pay3 (F := Ideal) P0 P1 P2 = weightBlk (scoreBlk P0 P1 P2) := rfl

theorem pay4_eq (P0 : Vec Ideal S256x64 .f32) (P1 : Vec Ideal S4096x64 .bf16) (P2 : Vec Ideal S1x4096 .f32) :
    Gen.k0_pay4 (F := Ideal) P0 P1 P2 = invCol (Gen.k0_pay3 (F := Ideal) P0 P1 P2) := rfl

theorem pay5_eq (P0 : Vec Ideal S256x64 .f32) (P1 : Vec Ideal S4096x64 .bf16) (P2 : Vec Ideal S1x4096 .f32) :
    Gen.k0_pay5 (F := Ideal) P0 P1 P2 = truncf .bf16 (Gen.k0_pay3 (F := Ideal) P0 P1 P2) bitsLt_bf16_f32 := rfl

theorem pay6_eq (P0 : Vec Ideal S256x64 .f32) (P1 : Vec Ideal S4096x64 .bf16) (P2 : Vec Ideal S1x4096 .f32) (P3 : Vec Ideal S4096x1 .bf16) :
    Gen.k0_pay6 (F := Ideal) P0 P1 P2 P3
      = matmul dot_S256x4096_S4096x1_S256x1_1_0_0_1_n_n none (Gen.k0_pay5 (F := Ideal) P0 P1 P2)
          (shapeCast S4096x1 P3 shapeCasts_S4096x1_S4096x1 : FVec Ideal S4096x1 .bf16) (constant S256x1 .f32 0x00000000#32) := rfl

theorem pay7_eq (P0 : Vec Ideal S256x64 .f32) (P1 : Vec Ideal S4096x64 .bf16) (P2 : Vec Ideal S1x4096 .f32) :
    Gen.k0_pay7 (F := Ideal) P0 P1 P2
      = mulf (matmul dot_S256x4096_S4096x64_S256x64_1_0_0_1_n_n none (Gen.k0_pay5 (F := Ideal) P0 P1 P2) (Gen.k0_pay2 P1)
            (constant S256x64 .f32 0x00000000#32))
          (broadcastTo S256x64 (Gen.k0_pay4 (F := Ideal) P0 P1 P2) broadcasts_S256x1_S256x64) := rfl

theorem pay1_eq (v0 : Vec Ideal S256x64 .f32) (v30 v35 : FVec Ideal S256x1 .f32) (v37 : FVec Ideal S256x64 .f32) :
    Gen.k0_pay1 (F := Ideal) v0 v30 v35 v37
      = subf (multiReduction .add [1] S256 (mulf v0 v37) 0x00000000#32 reduces_S256x64_S256 (.inl rfl) rfl)
          (mulf (shapeCast S256 v30 shapeCasts_S256x1_S256) (shapeCast S256 v35 shapeCasts_S256x1_S256)) := rfl

/-! ### Each piece at an index -/

theorem exp_read {s : Shape} (v : FVec Ideal s .f32) (i : s.Idx) : exp v i = Ideal.exp (v i) := rfl

theorem scoreBlk_read (P0 : Vec Ideal S256x64 .f32) (P1 : Vec Ideal S4096x64 .bf16) (P2 : Vec Ideal S1x4096 .f32) (p : Fin 256) (k : Fin 4096) :
    scoreBlk P0 P1 P2 (ix2 p k)
      = score (fun d : Fin 64 => P0 (ix2 p d)) (fun (k : Fin 4096) (d : Fin 64) => P1 (ix2 k d)) (fun k : Fin 4096 => P2 (ix2 0 k)) k := by
  unfold scoreBlk score
  rw [subf_apply, inner_read, spreadRow_read]
  unfold Gen.k0_pay2
  rw [shapeCast_self, shapeCast_self]
  rfl

theorem maxCol_read (A : FVec Ideal S256x4096 .f32) (p : Fin 256) (q : Fin 1) :
    maxCol A (ix2 p q) = rowMax (fun k : Fin 4096 => A (ix2 p k)) :=
  (toCol_read _ p q).trans (rowMax_read A p)

theorem minCol_read (A : FVec Ideal S256x4096 .f32) (p : Fin 256) (q : Fin 1) :
    minCol A (ix2 p q) = rowMin (fun k : Fin 4096 => A (ix2 p k)) :=
  (toCol_read _ p q).trans (rowMin_read A p)

theorem tempCol_read (A : FVec Ideal S256x4096 .f32) (p : Fin 256) (q : Fin 1) :
    tempCol A (ix2 p q) = temp (fun k : Fin 4096 => A (ix2 p k)) := by
  unfold tempCol temp
  rw [minimumf_apply, maximumf_apply, divf_apply, maximumf_apply, subf_apply]
  rw [maxCol_read, minCol_read]
  rw [broadcast_apply, broadcast_apply, broadcast_apply]
  rw [Ideal.ofBits_def, Ideal.ofBits_def, Ideal.ofBits_def]

theorem weightBlk_read (A : FVec Ideal S256x4096 .f32) (p : Fin 256) (k : Fin 4096) :
    weightBlk A (ix2 p k) = kWeight (fun k : Fin 4096 => A (ix2 p k)) k := by
  unfold weightBlk kWeight
  rw [exp_read, mulf_apply, subf_apply, spreadCol4096_read, spreadCol4096_read, tempCol_read, maxCol_read]

theorem invCol_read (E : FVec Ideal S256x4096 .f32) (p : Fin 256) (q : Fin 1) :
    invCol E (ix2 p q) = Ideal.div fOne (∑ k : Fin 4096, E (ix2 p k)) := by
  unfold invCol
  rw [divf_apply, broadcast_apply, toCol_read, rowSum_read, Ideal.ofBits_def]

/-! ### The stored blocks -/

section
variable (P0 : Vec Ideal S256x64 .f32) (P1 : Vec Ideal S4096x64 .bf16) (P2 : Vec Ideal S1x4096 .f32) (P3 : Vec Ideal S4096x1 .bf16)

/-- Row `p`'s scores from the loaded blocks. -/
abbrev rowScores (p : Fin 256) : Fin 4096 → EReal :=
  score (fun d : Fin 64 => P0 (ix2 p d)) (fun (k : Fin 4096) (d : Fin 64) => P1 (ix2 k d)) (fun k : Fin 4096 => P2 (ix2 0 k))

theorem weights_read (p : Fin 256) (k : Fin 4096) :
    Gen.k0_pay3 (F := Ideal) P0 P1 P2 (ix2 p k) = kWeight (rowScores P0 P1 P2 p) k := by
  rw [pay3_eq, weightBlk_read]
  exact congrArg (fun a => kWeight a k) (funext fun k' => scoreBlk_read P0 P1 P2 p k')

theorem castWeights_read (p : Fin 256) (k : Fin 4096) :
    Gen.k0_pay5 (F := Ideal) P0 P1 P2 (ix2 p k) = kWeight (rowScores P0 P1 P2 p) k := by
  rw [pay5_eq, truncf_apply, weights_read]

theorem inv_read (p : Fin 256) (q : Fin 1) :
    Gen.k0_pay4 (F := Ideal) P0 P1 P2 (ix2 p q) = kInv (rowScores P0 P1 P2 p) := by
  rw [pay4_eq, invCol_read]
  unfold kInv
  exact congrArg (Ideal.div fOne) (Finset.sum_congr rfl fun k _ => weights_read P0 P1 P2 p k)

/-- The stored choice block at `(p, d)`. -/
theorem choice_read (p : Fin 256) (d : Fin 64) :
    Gen.k0_pay7 (F := Ideal) P0 P1 P2 (ix2 p d)
      = kChoice (rowScores P0 P1 P2 p) (fun (k : Fin 4096) (d : Fin 64) => P1 (ix2 k d)) d := by
  rw [pay7_eq, mulf_apply, mix_read, spreadCol64_read, inv_read]
  unfold kChoice
  refine congrArg (· * kInv (rowScores P0 P1 P2 p)) (Finset.sum_congr rfl fun k _ => ?_)
  rw [castWeights_read]
  unfold Gen.k0_pay2
  rw [shapeCast_self]

/-- The intercept product at row `p`. -/
theorem interceptDot_read (p : Fin 256) (q : Fin 1) :
    Gen.k0_pay6 (F := Ideal) P0 P1 P2 P3 (ix2 p q)
      = ∑ k : Fin 4096, kWeight (rowScores P0 P1 P2 p) k * P3 (ix2 k q) := by
  rw [pay6_eq, dot_read]
  refine Finset.sum_congr rfl fun k _ => ?_
  rw [castWeights_read, shapeCast_self]

/-- The stored value block at `p`. -/
theorem value_read (p : Fin 256) :
    Gen.k0_pay1 (F := Ideal) P0 (Gen.k0_pay4 (F := Ideal) P0 P1 P2) (Gen.k0_pay6 (F := Ideal) P0 P1 P2 P3) (Gen.k0_pay7 (F := Ideal) P0 P1 P2) (ix1 p)
      = kValue (fun d : Fin 64 => P0 (ix2 p d)) (rowScores P0 P1 P2 p) (fun (k : Fin 4096) (d : Fin 64) => P1 (ix2 k d))
          (fun k : Fin 4096 => P3 (ix2 k 0)) := by
  rw [pay1_eq, subf_apply, rowSum64_read, mulf_apply, ofCol_read, ofCol_read, inv_read, interceptDot_read]
  unfold kValue
  refine congrArg (· - kInv (rowScores P0 P1 P2 p) * ∑ k : Fin 4096, kWeight (rowScores P0 P1 P2 p) k * P3 (ix2 k 0)) (Finset.sum_congr rfl fun d _ => ?_)
  rw [mulf_apply, choice_read]

end

end Cert.SoftAssign.Ker

end
-- ==== Proof.KerBlocks.lean ====
/-
  From blocks to arrays.  Grid point `t` of the kernel works on query rows `256 t … 256 t + 255` and on
  all code vectors and intercepts; what it writes back is block `t` of the two result arrays of
  `Spec.lean` (`choiceArr`, `valueArr`), the 64 blocks cover both arrays, and so the kernel's run ends with
  exactly those arrays.
-/
import proofs.«169335_j88089779241353_2_alg».proof.Proof.Gen.KernelIdeal.Value
import proofs.«169335_j88089779241353_2_alg».proof.Proof.Spec
import proofs.«169335_j88089779241353_2_alg».proof.Proof.KerPay
import Idealize.ShloMosaic.Lib.Pipeline.Value
import Idealize.ShloMosaic.Lib.StableHlo.Run
import Idealize.ShloMosaic.Lib.ValueLayout
import Idealize.ShloMosaic.Lib.ValueIdx

noncomputable section

namespace Cert.SoftAssign.Ker

open Idealize.ShloMosaic Idealize.ShloMosaic.TcCoe Idealize.SL.Sem ValueIdx
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

/-- The three argument arrays on core `c`. -/
abbrev argX (c : Dev nD) : S16384x64.Idx → EReal := m ((c : Thread nD τ).loc main_arg0)
abbrev argY (c : Dev nD) : S4096x64.Idx → EReal := m ((c : Thread nD τ).loc main_arg1)
abbrev argB (c : Dev nD) : S4096.Idx → EReal := m ((c : Thread nD τ).loc main_arg2)

theorem hz2 : (![0, 0] : Fin 2 → Nat) = fun _ => 0 := funext fun a => by fin_cases a <;> rfl
theorem hz1 : (![0] : Fin 1 → Nat) = fun _ => 0 := funext fun a => by fin_cases a; rfl

/-- The index maps over the 64 grid points: the query and result windows move with the point, the
    code vectors and the two intercept layouts stay at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 1) = t.val :=
  (by decide +kernel : ∀ t : Fin grid0.N, _)

/-! ### What the host wrote before the region -/

/-- The code vectors in the narrower format: the same extended reals. -/
theorem V_codes (c : Dev nD) : @Eq (S4096x64.Idx → EReal) (V m c main_v0) (truncf (F := Ideal) .bf16 (argY m c : FVec Ideal S4096x64 .f32) bitsLt_bf16_f32) := by
  dsimp only [Gen.V, Gen.hostOps0]
  after_results

/-- The intercepts as a row. -/
theorem V_row (c : Dev nD) : (V m c main_v1 : S1x4096.Idx → EReal) = shapeCast S1x4096 (argB m c) shapeCasts_S4096_S1x4096 := by
  dsimp only [Gen.V, Gen.hostOps0]
  after_results
  rfl

/-- The intercepts as a column, in the narrower format. -/
theorem V_col (c : Dev nD) : @Eq (S4096x1.Idx → EReal) (V m c main_v3)
    (truncf (F := Ideal) .bf16 (shapeCast S4096x1 (argB m c) shapeCasts_S4096_S4096x1 : FVec Ideal S4096x1 .f32) bitsLt_bf16_f32) := by
  dsimp only [Gen.V, Gen.hostOps0]
  after_results
  rfl

/-! ### The input blocks at a point -/

/-- Row `p` of the query block at point `t` is row `256 t + p` of the queries. -/
theorem xblk_read (c : Dev nD) (t : Fin cfg0.N) (p : Fin 256) (d : Fin 64) (r : Fin 16384) (hr : r.val = 256 * t.val + p.val) :
    (iblk m c 0 t : Vec Ideal S256x64 .f32) (ix2 p d) = argX m c (ix2 r d) := by
  obtain ⟨e0, e1, -⟩ := idx_facts t
  unfold iblk
  rw [View.read_apply]
  show V m c main_arg0 _ = _
  rw [V_main_arg0]
  refine congrArg (argX m c) (funext fun a => Fin.ext ?_)
  match a with
  | ⟨0, _⟩ => show win0_0.index t (0 : Fin 2) * 256 + 1 * p.val = r.val; rw [e0, hr]; omega
  | ⟨1, _⟩ => show win0_0.index t (1 : Fin 2) * 64 + 1 * d.val = d.val; rw [e1]; omega

/-- The code-vector block at every point is all of `Y`. -/
theorem yblk_read (c : Dev nD) (t : Fin cfg0.N) (k : Fin 4096) (d : Fin 64) :
    (iblk m c 1 t : Vec Ideal S4096x64 .bf16) (ix2 k d) = argY m c (ix2 k d) := by
  obtain ⟨-, -, e0, e1, -⟩ := idx_facts t
  unfold iblk
  rw [View.read_apply]
  show (V m c main_v0 : S4096x64.Idx → EReal) _ = _
  rw [V_codes, truncf_apply]
  refine congrArg (argY m c) (funext fun a => Fin.ext ?_)
  match a with
  | ⟨0, _⟩ => show win0_1.index t (0 : Fin 2) * 4096 + 1 * k.val = k.val; rw [e0]; omega
  | ⟨1, _⟩ => show win0_1.index t (1 : Fin 2) * 64 + 1 * d.val = d.val; rw [e1]; omega

/-- The intercept-row block at every point is all of `b`. -/
theorem brow_read (c : Dev nD) (t : Fin cfg0.N) (k : Fin 4096) :
    (iblk m c 2 t : Vec Ideal S1x4096 .f32) (ix2 0 k) = argB m c (ix1 k) := by
  obtain ⟨-, -, -, -, e0, e1, -⟩ := idx_facts t
  unfold iblk
  rw [View.read_apply]
  show (V m c main_v1 : S1x4096.Idx → EReal) _ = _
  rw [V_row]
  refine shapeCast_apply _ _ _ (ix1 k) ?_
  rw [Shape.rowMajor_val_one, Shape.rowMajor_val_two]
  show k.val = (win0_2.index t (0 : Fin 2) * 1 + 1 * 0) * 4096 + (win0_2.index t (1 : Fin 2) * 4096 + 1 * k.val)
  rw [e0, e1]; omega

/-- The intercept-column block at every point is all of `b`. -/
theorem bcol_read (c : Dev nD) (t : Fin cfg0.N) (k : Fin 4096) :
    (iblk m c 3 t : Vec Ideal S4096x1 .bf16) (ix2 k 0) = argB m c (ix1 k) := by
  obtain ⟨-, -, -, -, -, -, e0, e1, -⟩ := idx_facts t
  unfold iblk
  rw [View.read_apply]
  show (V m c main_v3 : S4096x1.Idx → EReal) _ = _
  rw [V_col, truncf_apply]
  refine shapeCast_apply _ _ _ (ix1 k) ?_
  rw [Shape.rowMajor_val_one, Shape.rowMajor_val_two]
  show k.val = (win0_3.index t (0 : Fin 2) * 4096 + 1 * k.val) * 1 + (win0_3.index t (1 : Fin 2) * 1 + 1 * 0)
  rw [e0, e1]; omega

/-! ### What a point writes back -/

theorem choice_read_idx (P0 : Vec Ideal S256x64 .f32) (P1 : Vec Ideal S4096x64 .bf16) (P2 : Vec Ideal S1x4096 .f32) (y : S256x64.Idx) :
    Gen.k0_pay7 (F := Ideal) P0 P1 P2 y
      = kChoice (rowScores P0 P1 P2 (y 0)) (fun (k : Fin 4096) (d : Fin 64) => P1 (ix2 k d)) (y 1) := by
  obtain ⟨p, d, rfl⟩ : ∃ (p : Fin 256) (d : Fin 64), y = ix2 p d := ⟨y 0, y 1, eq_ix2 y⟩
  exact choice_read P0 P1 P2 p d

theorem value_read_idx (P0 : Vec Ideal S256x64 .f32) (P1 : Vec Ideal S4096x64 .bf16) (P2 : Vec Ideal S1x4096 .f32) (P3 : Vec Ideal S4096x1 .bf16) (y : S256.Idx) :
    Gen.k0_pay1 (F := Ideal) P0 (Gen.k0_pay4 (F := Ideal) P0 P1 P2) (Gen.k0_pay6 (F := Ideal) P0 P1 P2 P3) (Gen.k0_pay7 (F := Ideal) P0 P1 P2) y
      = kValue (fun d : Fin 64 => P0 (ix2 (y 0) d)) (rowScores P0 P1 P2 (y 0)) (fun (k : Fin 4096) (d : Fin 64) => P1 (ix2 k d))
          (fun k : Fin 4096 => P3 (ix2 k 0)) := by
  obtain ⟨p, rfl⟩ : ∃ p : Fin 256, y = ix1 p := ⟨y 0, eq_ix1 y⟩
  exact value_read P0 P1 P2 P3 p

/-- The blocks' rows as rows of the argument arrays. -/
theorem qrow_blk (c : Dev nD) (t : Fin cfg0.N) (p : Fin 256) (r : Fin 16384) (hr : r.val = 256 * t.val + p.val) :
    (fun d : Fin 64 => (iblk m c 0 t : Vec Ideal S256x64 .f32) (ix2 p d)) = qRow (argX m c) r :=
  funext fun d => xblk_read m c t p d r hr
theorem codes_blk (c : Dev nD) (t : Fin cfg0.N) :
    (fun (k : Fin 4096) (d : Fin 64) => (iblk m c 1 t : Vec Ideal S4096x64 .bf16) (ix2 k d)) = codes (argY m c) :=
  funext fun k => funext fun d => yblk_read m c t k d
theorem icptRow_blk (c : Dev nD) (t : Fin cfg0.N) :
    (fun k : Fin 4096 => (iblk m c 2 t : Vec Ideal S1x4096 .f32) (ix2 0 k)) = icpt (argB m c) :=
  funext fun k => brow_read m c t k
theorem icptCol_blk (c : Dev nD) (t : Fin cfg0.N) :
    (fun k : Fin 4096 => (iblk m c 3 t : Vec Ideal S4096x1 .bf16) (ix2 k 0)) = icpt (argB m c) :=
  funext fun k => bcol_read m c t k

/-- Row `p`'s scores at point `t` are the scores of query row `256 t + p`. -/
theorem rowScores_blk (c : Dev nD) (t : Fin cfg0.N) (p : Fin 256) (r : Fin 16384) (hr : r.val = 256 * t.val + p.val) :
    rowScores (iblk m c 0 t) (iblk m c 1 t) (iblk m c 2 t) p = scores (argX m c) (argY m c) (argB m c) r := by
  show score _ _ _ = score _ _ _
  rw [qrow_blk m c t p r hr, codes_blk m c t, icptRow_blk m c t]

/-- Point `t` writes back block `t` of the choice array. -/
theorem flushed_choice (c : Dev nD) (t : Fin cfg0.N) :
    (dats m 0 c).flushed 4 t = ((cfg0.win 4).blk t).view.read (Elt Ideal) (choiceArr (argX m c) (argY m c) (argB m c)) := by
  rw [flushed4]
  unfold out0_4
  rw [View.canon_unit_zero hz2]
  simp only [View.ld_unit_zero (S := S256x64) hz2, View.ld_unit_zero (S := S4096x64) hz2, View.ld_unit_zero (S := S1x4096) hz2]
  obtain ⟨-, -, -, -, -, -, -, -, e0, e1, -⟩ := idx_facts t
  funext j
  have hj0 : (j 0).val < 256 := (j 0).isLt
  have hj1 : (j 1).val < 64 := (j 1).isLt
  show Gen.k0_pay7 (F := Ideal) (iblk m c 0 t) (iblk m c 1 t) (iblk m c 2 t) j
      = choiceArr (argX m c) (argY m c) (argB m c) (((cfg0.win 4).blk t).view.emb j)
  refine (choice_read_idx _ _ _ j).trans ?_
  unfold choiceArr
  have hr : ((((cfg0.win 4).blk t).view.emb j) 0).val = 256 * t.val + (j 0).val := by
    show win0_4.index t (0 : Fin 2) * 256 + 1 * (j 0).val = _
    rw [e0]; omega
  have hd : j 1 = (((cfg0.win 4).blk t).view.emb j) 1 := Fin.ext (by
    show (j 1).val = win0_4.index t (1 : Fin 2) * 64 + 1 * (j 1).val
    rw [e1]; omega)
  rw [rowScores_blk m c t (j 0) _ hr, codes_blk m c t, hd]

/-- Point `t` writes back block `t` of the value array. -/
theorem flushed_value (c : Dev nD) (t : Fin cfg0.N) :
    (dats m 0 c).flushed 5 t = ((cfg0.win 5).blk t).view.read (Elt Ideal) (valueArr (argX m c) (argY m c) (argB m c)) := by
  rw [flushed5]
  unfold out0_5
  rw [View.canon_unit_zero hz1]
  simp only [View.ld_unit_zero (S := S256x64) hz2, View.ld_unit_zero (S := S4096x64) hz2, View.ld_unit_zero (S := S1x4096) hz2, View.ld_unit_zero (S := S4096x1) hz2]
  obtain ⟨-, -, -, -, -, -, -, -, -, -, e0⟩ := idx_facts t
  funext j
  have hj0 : (j 0).val < 256 := (j 0).isLt
  show Gen.k0_pay1 (F := Ideal) (iblk m c 0 t) (Gen.k0_pay4 (F := Ideal) (iblk m c 0 t) (iblk m c 1 t) (iblk m c 2 t))
        (Gen.k0_pay6 (F := Ideal) (iblk m c 0 t) (iblk m c 1 t) (iblk m c 2 t) (iblk m c 3 t)) (Gen.k0_pay7 (F := Ideal) (iblk m c 0 t) (iblk m c 1 t) (iblk m c 2 t)) j
      = valueArr (argX m c) (argY m c) (argB m c) (((cfg0.win 5).blk t).view.emb j)
  refine (value_read_idx _ _ _ _ j).trans ?_
  unfold valueArr
  have hr : ((((cfg0.win 5).blk t).view.emb j) 0).val = 256 * t.val + (j 0).val := by
    show win0_5.index t (0 : Fin 1) * 256 + 1 * (j 0).val = _
    rw [e0]; omega
  rw [rowScores_blk m c t (j 0) _ hr, qrow_blk m c t (j 0) _ hr, codes_blk m c t, icptCol_blk m c t]

/-! ### The blocks cover the arrays -/

theorem mem_blk4 (t : Fin cfg0.N) (i : S16384x64.Idx) :
    i ∈ ((cfg0.win 4).blk t).view.set ↔ ∀ a : Fin 2, win0_4.index t a * S256x64.size a ≤ (i a).val ∧ (i a).val < win0_4.index t a * S256x64.size a + S256x64.size a := by
  show i ∈ ((View.whole main_v4_0).slice (win0_4.rect t)).set ↔ _
  rw [View.set_slice_whole, Rect.mem_set_unit]
  exact Iff.rfl

theorem mem_blk5 (t : Fin cfg0.N) (i : S16384.Idx) :
    i ∈ ((cfg0.win 5).blk t).view.set ↔ ∀ a : Fin 1, win0_5.index t a * S256.size a ≤ (i a).val ∧ (i a).val < win0_5.index t a * S256.size a + S256.size a := by
  show i ∈ ((View.whole main_v4_1).slice (win0_5.rect t)).set ↔ _
  rw [View.set_slice_whole, Rect.mem_set_unit]
  exact Iff.rfl

/-- The point whose block holds query row `r` is `r / 256`. -/
theorem point_of_row (r : Nat) (hr : r < 16384) : ∃ t : Fin cfg0.N, t.val = r / 256 :=
  ⟨⟨r / 256, by have hN : grid0.N = 64 := N_0; show r / 256 < grid0.N; omega⟩, rfl⟩

/-- After the run the choice array is `choiceArr` of the arguments. -/
theorem final_choice (c : Dev nD) : (dats m 0 c).arrAt 4 cfg0.N = choiceArr (argX m c) (argY m c) (argB m c) :=
  (dats m 0 c).arrAt_eq_of_cover 4 _ (fun t _ => flushed_choice m c t) fun i => by
    have hi0 : (i 0).val < 16384 := (i 0).isLt
    have hi1 : (i 1).val < 64 := (i 1).isLt
    obtain ⟨t, ht⟩ := point_of_row (i 0).val hi0
    obtain ⟨-, -, -, -, -, -, -, -, e0, e1, -⟩ := idx_facts t
    refine ⟨t, flush0_4 t, ?_⟩
    rw [mem_blk4]
    intro a
    match a with
    | ⟨0, _⟩ =>
      show win0_4.index t (0 : Fin 2) * 256 ≤ (i 0).val ∧ (i 0).val < win0_4.index t (0 : Fin 2) * 256 + 256
      rw [e0, ht]; omega
    | ⟨1, _⟩ =>
      show win0_4.index t (1 : Fin 2) * 64 ≤ (i 1).val ∧ (i 1).val < win0_4.index t (1 : Fin 2) * 64 + 64
      rw [e1]; omega

/-- After the run the value array is `valueArr` of the arguments. -/
theorem final_value (c : Dev nD) : (dats m 0 c).arrAt 5 cfg0.N = valueArr (argX m c) (argY m c) (argB m c) :=
  (dats m 0 c).arrAt_eq_of_cover 5 _ (fun t _ => flushed_value m c t) fun i => by
    have hi0 : (i 0).val < 16384 := (i 0).isLt
    obtain ⟨t, ht⟩ := point_of_row (i 0).val hi0
    obtain ⟨-, -, -, -, -, -, -, -, -, -, e0⟩ := idx_facts t
    refine ⟨t, flush0_5 t, ?_⟩
    rw [mem_blk5]
    intro a
    match a with
    | ⟨0, _⟩ =>
      show win0_5.index t (0 : Fin 1) * 256 ≤ (i 0).val ∧ (i 0).val < win0_5.index t (0 : Fin 1) * 256 + 256
      rw [e0, ht]; omega

/-! ### The run, read -/

/-- The kernel's run ends with the two result arrays at `choiceArr` and `valueArr` of the arguments, the
    arguments unchanged. -/
theorem run : θ_run defs (onTc (τ := τ) (main (F := Ideal))) ⟨m, fun _ => 0, ρ⟩ fun r => ∀ c : Dev nD,
      r.2.mem ((c : Thread nD τ).loc main_v4_0) = choiceArr (argX m c) (argY m c) (argB m c)
      ∧ r.2.mem ((c : Thread nD τ).loc main_v4_1) = valueArr (argX m c) (argY m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_choice m c), (h c).2.1.trans (final_value m c), (h c).2.2⟩)
    (run_blocks m ρ)

end Cert.SoftAssign.Ker

end
-- ==== Proof.lean ====
/-
  The certificate of a soft vector-quantisation kernel against its jnp reference.

  For each of 16384 query rows `x`, with 4096 code vectors `Y k` and intercepts `b k`: the scores are
  `a k = ⟨x, Y k⟩ - b k`; the temperature is `T = clip (50 / max (max a - min a) 1e-3) 50 5000`; the weights
  `w` are the softmax of `T • a`; the results are `choice = ∑ k, w k • Y k` and `v = ∑ k, w k * a k`.

  The kernel (one grid point per 256 rows, three matrix products) computes the unnormalised weights
  `e k = exp (T * (a k - max a))`, then `choice = (∑ k, e k • Y k) * (1 / ∑ e)` and
  `v = ⟨x, choice⟩ - (1 / ∑ e) * ∑ k, e k * b k`.  The reference scales first and shifts by the maximum of
  the scaled scores, and normalises each weight before summing.  On the extended reals the two agree
  wherever every input is finite: the scores are then real, `T` is a real in `[50, 5000]`, so
  `max (a * T) = (max a) * T` and `T * (a k - max a) = a k * T - max (a * T)`; the weights are positive
  reals, their sum is a positive real, and dividing by it distributes over the finite sums
  (`Proof/Algebra.lean`).  The format changes of the kernel (the code vectors, the weights and the
  intercept column are narrowed before the matrix unit) are the identity on the extended reals, and a
  matrix product into a zero accumulator is the plain sum of products.

  The modules: `Spec` (the two arrangements, row by row), `Algebra` (they agree on real rows), `Bridge`
  (so the two result arrays agree), `Finite` (the precondition makes every entry a real), `RefRead` (the
  reference's results at an index are its arrangement), `KerLayout` / `KerMatmul` / `KerPay` (the kernel
  body's stored blocks at an index are its arrangement), `KerBlocks` (the 64 blocks are the blocks of the
  two arrays, and cover them).
-/
import proofs.«169335_j88089779241353_2_alg».proof.Defs
import proofs.«169335_j88089779241353_2_alg».proof.Proof.Gen.Kernel
import proofs.«169335_j88089779241353_2_alg».proof.Proof.Gen.Kernel.Skeleton
import proofs.«169335_j88089779241353_2_alg».proof.Proof.Gen.Kernel.Launch
import proofs.«169335_j88089779241353_2_alg».proof.Proof.Gen.Kernel.Points
import proofs.«169335_j88089779241353_2_alg».proof.Proof.Gen.Kernel.Frame
import proofs.«169335_j88089779241353_2_alg».proof.Proof.Gen.KernelIdeal
import proofs.«169335_j88089779241353_2_alg».proof.Proof.Gen.KernelIdeal.Skeleton
import proofs.«169335_j88089779241353_2_alg».proof.Proof.Gen.KernelIdeal.Launch
import proofs.«169335_j88089779241353_2_alg».proof.Proof.Gen.KernelIdeal.Points
import proofs.«169335_j88089779241353_2_alg».proof.Proof.Gen.KernelIdeal.Frame
import proofs.«169335_j88089779241353_2_alg».proof.Proof.Gen.ReferenceIdeal
import proofs.«169335_j88089779241353_2_alg».proof.Proof.Gen.Pre_finite_inputs
import proofs.«169335_j88089779241353_2_alg».proof.Proof.Gen.KernelIdeal.Value
import proofs.«169335_j88089779241353_2_alg».proof.Proof.Gen.ReferenceIdeal.Run
import proofs.«169335_j88089779241353_2_alg».proof.Proof.Gen.ReferenceIdeal.Read
import proofs.«169335_j88089779241353_2_alg».proof.Proof.Spec
import proofs.«169335_j88089779241353_2_alg».proof.Proof.Algebra
import proofs.«169335_j88089779241353_2_alg».proof.Proof.Bridge
import proofs.«169335_j88089779241353_2_alg».proof.Proof.Finite
import proofs.«169335_j88089779241353_2_alg».proof.Proof.RefRead
import proofs.«169335_j88089779241353_2_alg».proof.Proof.KerBlocks
import Idealize.ShloMosaic.Adequacy
import Idealize.ShloMosaic.Init

noncomputable section

namespace Cert.Proof

open Idealize.ShloMosaic Idealize.SL.Sem Cert.SoftAssign

/-- The kernel as printed runs and keeps its arguments. -/
theorem frame_k : Cert.frame_Kernel := fun m ρ _ => Cert.Kernel.Gen.frame m ρ

/-- The idealised kernel runs and keeps its arguments. -/
theorem frame_ki : Cert.frame_KernelIdeal := fun m ρ _ => Cert.KernelIdeal.Gen.frame m ρ

/-- The idealised reference runs and keeps its arguments: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the same two arrays: the kernel's run ends with `choiceArr` and `valueArr` of the
    arguments; the reference's results, read at an index, are the reference's arrangement of the same rows,
    which on finite inputs is the kernel's. -/
theorem algebraic : Cert.algebraic_KernelIdeal_ReferenceIdeal := by
  intro m ρ m' ρ' hpre hagree
  refine ⟨fun c => choiceArr (Ker.argX m c) (Ker.argY m c) (Ker.argB m c),
    fun c => valueArr (Ker.argX m c) (Ker.argY m c) (Ker.argB m c), Ker.run m ρ, ?_⟩
  refine (θ_run Cert.ReferenceIdeal.defs _ _).mono (fun _ h c => ?_) (Cert.ReferenceIdeal.Value.run (F := Ideal) m' ρ')
  obtain ⟨hX, hY, hB⟩ := real_of_pre _ _ _ (hpre c)
  refine ⟨(h c).1.trans ?_, (h c).2.1.trans ?_, (h c).2.2⟩
  · rw [Cert.ReferenceIdeal.Read.val_main_v29_eq, (hagree c).1, (hagree c).2.1, (hagree c).2.2]
    funext i
    exact (ref_choice _ _ _ i).trans (choiceArr_eq_ref _ _ _ hX hY hB i).symm
  · rw [Cert.ReferenceIdeal.Read.val_main_v28_eq, (hagree c).1, (hagree c).2.1, (hagree c).2.2]
    funext i
    exact (ref_value _ _ _ i).trans (valueArr_eq_ref _ _ _ hX hY hB i).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
